-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S5 : Shape := ⟨1, ![5]⟩
abbrev S4096x128 : Shape := ⟨2, ![4096, 128]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 63
  | .vmem => 10
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S5, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S5, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_9 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_cst_11 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_12 : Ref sig .tc := ⟨.hbm, 54, rfl⟩
abbrev main_v39 : Ref sig .tc := ⟨.hbm, 55, rfl⟩
abbrev main_v40 : Ref sig .tc := ⟨.hbm, 56, rfl⟩
abbrev main_cst_13 : Ref sig .tc := ⟨.hbm, 57, rfl⟩
abbrev main_v41 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v55 : BitVec 1 := Scalar.cmpi .eq arg0 c31_i32
  let v56 : BitVec 32 := Scalar.extui v55
  let c0_i32_33 : BitVec 32 := 0#32
  let v57 : BitVec 1 := Scalar.cmpi .ne v56 c0_i32_33
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1 : S1x1.ShapeCasts S1
  concatenates_S1_S1_S1_S1_S1_S5_d0 : Shape.Concatenates [S1, S1, S1, S1, S1] S5 0
  inb_S5_S5_0 : ∀ a, (![0] : Fin 1 → Nat) a + S5.size a ≤ S5.size a
  h_S5 : 0 < S5.numel
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5.size a ≤ S5.size a
  hwx0_2 : ∀ i : grid0.Coords, EltTy.bits .f32 = 32 ∨ (Rect.block (s := S5) S5.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S1 : Shape := ⟨1, ![1]⟩

abbrev nBuf : Space → Nat
  | .hbm => 77
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16777216, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S16777216, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_cst_3 : Ref sig .tc := ⟨.hbm, 10, rfl⟩
abbrev main_v4 : Ref sig .tc := ⟨.hbm, 11, rfl⟩
abbrev main_cst_4 : Ref sig .tc := ⟨.hbm, 12, rfl⟩
abbrev main_v5 : Ref sig .tc := ⟨.hbm, 13, rfl⟩
abbrev main_c : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_cst_3 : Ref sig .tc := ⟨.hbm, 30, rfl⟩
abbrev main_call0_call0_v11 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_v0 : Ref sig .tc := ⟨.hbm, 34, rfl⟩
abbrev main_v6 : Ref sig .tc := ⟨.hbm, 35, rfl⟩
abbrev main_c_5 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_cst_0 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_cst_1 : Ref sig .tc := ⟨.hbm, 47, rfl⟩
abbrev main_call1_call0_v8 : Ref sig .tc := ⟨.hbm, 48, rfl⟩
abbrev main_call1_call0_cst_2 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_cst_3 : Ref sig .tc := ⟨.hbm, 52, rfl⟩
abbrev main_call1_call0_v11 : Ref sig .tc := ⟨.hbm, 53, rfl⟩
abbrev main_call1_call0_cst_4 : Ref sig .tc := ⟨.hbm, 54, rfl⟩
abbrev main_call1_call0_call0_v0 : Ref sig .tc := ⟨.hbm, 55, rfl⟩
abbrev main_call1_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst_6 : Ref sig .tc := ⟨.hbm, 63, rfl⟩
abbrev main_v13 : Ref sig .tc := ⟨.hbm, 64, rfl⟩
abbrev main_cst_7 : Ref sig .tc := ⟨.hbm, 65, rfl⟩
abbrev main_v14 : Ref sig .tc := ⟨.hbm, 66, rfl⟩
abbrev main_v15 : Ref sig .tc := ⟨.hbm, 67, rfl⟩
abbrev main_cst_8 : Ref sig .tc := ⟨.hbm, 68, rfl⟩
abbrev main_v16 : Ref sig .tc := ⟨.hbm, 69, rfl⟩
abbrev main_v17 : Ref sig .tc := ⟨.hbm, 70, rfl⟩
abbrev main_cst_9 : Ref sig .tc := ⟨.hbm, 71, rfl⟩
abbrev main_v18 : Ref sig .tc := ⟨.hbm, 72, rfl⟩
abbrev main_v19 : Ref sig .tc := ⟨.hbm, 73, rfl⟩
abbrev main_cst_10 : Ref sig .tc := ⟨.hbm, 74, rfl⟩
abbrev main_v20 : Ref sig .tc := ⟨.hbm, 75, rfl⟩
abbrev main_v21 : Ref sig .tc := ⟨.hbm, 76, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel
  bcast_S_S1 : S_.BroadcastsInDim S1 (![] : Fin 0 → Fin S1.rank)
  bcast_S1_S16777216_0 : S1.BroadcastsInDim S16777216 (![0] : Fin 1 → Fin S16777216.rank)
  bcast_S_S16777216 : S_.BroadcastsInDim S16777216 (![] : Fin 0 → Fin S16777216.rank)
  shapeCasts_S_S1 : S_.ShapeCasts S1

variable [Facts₀]

class Facts : Prop extends Facts₀ where

variable [Facts]
-- ==== Proof.BlockSum.lean ====
/-
  One block's contribution to a running sum, read on the extended reals.

  A block is a 4096 × 128 array v. The program reduces it in two steps, first along the lanes
  (each row r gives Σₗ v(r, l)), then, after viewing the 4096 row sums as a 4096 × 1 column, along
  the rows; the single number is finally viewed as a 1 × 1 array. Over the extended reals this is the
  double sum Σᵣ Σₗ v(r, l), whatever the order in which the additions are made.
-/
import Idealize.ShloMosaic.PureOps.Ideal.Laws
import Idealize.ShloMosaic.Lib.ValueIdx
import Idealize.ShloMosaic.Lib.Pipeline.Value

noncomputable section

namespace ContrastLoss

open Idealize.ShloMosaic Idealize.ShloMosaic.ValueIdx

/-- The shapes a block passes through. -/
abbrev Blk : Shape := ⟨2, ![4096, 128]⟩
abbrev Rows : Shape := ⟨1, ![4096]⟩
abbrev Col : Shape := ⟨2, ![4096, 1]⟩
abbrev One1 : Shape := ⟨1, ![1]⟩
abbrev One2 : Shape := ⟨2, ![1, 1]⟩

/-- The two-step reduction of a block, at any float instance. -/
def blockSum {F : FTy → Type} [FloatOps F] (v : FVec F Blk .f32) (h1 : Blk.Reduces [1] Rows) (c1 : Rows.ShapeCasts Col)
    (h2 : Col.Reduces [0] One1) (c2 : One1.ShapeCasts One2) : FVec F One2 .f32 :=
  shapeCast One2
    (multiReduction .add [0] One1
      (shapeCast Col (multiReduction .add [1] Rows v 0x00000000#32 h1 (.inl rfl) rfl) c1)
      0x00000000#32 h2 (.inl rfl) rfl) c2

/-- Over the extended reals it is the double sum over rows and lanes. -/
theorem blockSum_apply (v : FVec Ideal Blk .f32) (h1 : Blk.Reduces [1] Rows) (c1 : Rows.ShapeCasts Col)
    (h2 : Col.Reduces [0] One1) (c2 : One1.ShapeCasts One2) (j : One2.Idx) :
    blockSum v h1 c1 h2 c2 j = ∑ r : Fin 4096, ∑ l : Fin 128, v (ix2 r l) := by
  unfold blockSum
  rw [shapeCast_apply _ c2 j (ix1 (0 : Fin 1)) (by
    rw [Shape.rowMajor_val_one, Shape.rowMajor_val_two]
    have h0 : (j 0).val < 1 := (j 0).isLt
    have h1 : (j 1).val < 1 := (j 1).isLt
    show (0 : Nat) = (j 0).val * 1 + (j 1).val
    omega)]
  refine (Ideal.multiReduction_add_single _ _ h2 _ _ (ix1 (0 : Fin 1))).trans ?_
  show ∑ r : Fin 4096, _ = _
  refine Finset.sum_congr rfl fun r _ => ?_
  rw [shapeCast_apply _ c1 (h2.lift (ix1 (0 : Fin 1)) r) (ix1 r) (by
    rw [Shape.rowMajor_val_one, Shape.rowMajor_val_two]
    show r.val = r.val * 1 + 0
    omega)]
  refine (Ideal.multiReduction_add_single _ _ h1 _ _ (ix1 r)).trans ?_
  show ∑ l : Fin 128, _ = _
  refine Finset.sum_congr rfl fun l _ => ?_
  congr 1
  funext a
  match a with
  | ⟨0, _⟩ => rfl
  | ⟨1, _⟩ => rfl

end ContrastLoss

end
-- ==== Proof.KerPieces.lean ====
/-
  What one grid point leaves in the five running sums.

  Each of the five one-entry scratch buffers holds a running sum. At a grid point the body adds to it one
  number computed from the point's two 4096 × 128 blocks x and y: the sum of x, of y, of x·x, of y·y, of x·y
  (entry by entry, then summed over the block). At the first point the buffers are first set to zero; at the
  last point the five numbers are, in addition, laid side by side into the five-entry output block.
-/
import proofs.«138697_j28741921145436_1_alg».proof.Proof.Gen.KernelIdeal.Frame
import proofs.«138697_j28741921145436_1_alg».proof.Proof.BlockSum
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

theorem hz : (![0, 0] : Fin 2 → Nat) = fun _ => 0 := funext fun a => by fin_cases a <;> rfl

/-- The sum of all entries of a block, by the program's two-step reduction. -/
abbrev bsum (v : FVec F S4096x128 .f32) : FVec F S1x1 .f32 :=
  ContrastLoss.blockSum v reduces_S4096x128_S4096 shapeCasts_S4096_S4096x1 reduces_S4096x1_S1 shapeCasts_S1_S1x1

/-- The zero the first point stores. -/
abbrev zero11 : Vec F S1x1 .f32 := broadcast S1x1 (Scalar.ofBits .f32 0x00000000#32)

/-! ## The stored values: the previous value plus one block's sum -/

theorem pay_sum_x (x : Vec F S4096x128 .f32) (s : Vec F S1x1 .f32) : k0_pay12 x s = addf s (bsum x) := by
  unfold k0_pay12 k0_pay10 bsum ContrastLoss.blockSum
  simp only [shapeCast_self]

theorem pay_sum_y (y : Vec F S4096x128 .f32) (s : Vec F S1x1 .f32) : k0_pay13 y s = addf s (bsum y) := by
  unfold k0_pay13 k0_pay11 bsum ContrastLoss.blockSum
  simp only [shapeCast_self]

theorem pay_sum_xx (x : Vec F S4096x128 .f32) (s : Vec F S1x1 .f32) :
    k0_pay1 (k0_pay14 x s) = addf s (bsum (mulf x x)) := by
  unfold k0_pay1 k0_pay14 k0_pay10 bsum ContrastLoss.blockSum
  simp only [shapeCast_self]

theorem pay_sum_yy (y : Vec F S4096x128 .f32) (s : Vec F S1x1 .f32) :
    k0_pay2 (k0_pay11 y) s = addf s (bsum (mulf y y)) := by
  unfold k0_pay2 k0_pay11 bsum ContrastLoss.blockSum
  simp only [shapeCast_self]

theorem pay_sum_xy (x y : Vec F S4096x128 .f32) (s : Vec F S1x1 .f32) :
    k0_pay3 (k0_pay10 x) (k0_pay11 y) s = addf s (bsum (mulf x y)) := by
  unfold k0_pay3 k0_pay10 k0_pay11 bsum ContrastLoss.blockSum
  simp only [shapeCast_self]

/-! ## A point that is neither the first nor the last -/

theorem soutB0 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 : Vec F S4096x128 .f32) (xs0 xs1 xs2 xs3 xs4 : Vec F S1x1 .f32) :
    sout0_B_0 c i a1 h1 a2 h2 a3 h3 a4 h4 a5 h5 a6 h6 a7 h7 a8 h8 hc0 hc1 x0 x1 xs0 xs1 xs2 xs3 xs4 = addf xs0 (bsum x0) := by
  unfold sout0_B_0
  rw [View.read_writes_eq_canon _ _ _ (scover0_B_0 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_x x0 xs0

theorem soutB1 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 : Vec F S4096x128 .f32) (xs0 xs1 xs2 xs3 xs4 : Vec F S1x1 .f32) :
    sout0_B_1 c i a1 h1 a2 h2 a3 h3 a4 h4 a5 h5 a6 h6 a7 h7 a8 h8 hc0 hc1 x0 x1 xs0 xs1 xs2 xs3 xs4 = addf xs1 (bsum x1) := by
  unfold sout0_B_1
  rw [View.read_writes_eq_canon _ _ _ (scover0_B_1 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_y x1 xs1

theorem soutB2 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 : Vec F S4096x128 .f32) (xs0 xs1 xs2 xs3 xs4 : Vec F S1x1 .f32) :
    sout0_B_2 c i a1 h1 a2 h2 a3 h3 a4 h4 a5 h5 a6 h6 a7 h7 a8 h8 hc0 hc1 x0 x1 xs0 xs1 xs2 xs3 xs4 = addf xs2 (bsum (mulf x0 x0)) := by
  unfold sout0_B_2
  rw [View.read_writes_eq_canon _ _ _ (scover0_B_2 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_xx x0 xs2

theorem soutB3 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 : Vec F S4096x128 .f32) (xs0 xs1 xs2 xs3 xs4 : Vec F S1x1 .f32) :
    sout0_B_3 c i a1 h1 a2 h2 a3 h3 a4 h4 a5 h5 a6 h6 a7 h7 a8 h8 hc0 hc1 x0 x1 xs0 xs1 xs2 xs3 xs4 = addf xs3 (bsum (mulf x1 x1)) := by
  unfold sout0_B_3
  rw [View.read_writes_eq_canon _ _ _ (scover0_B_3 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_yy x1 xs3

theorem soutB4 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : ¬cond0_1 i) (x0 x1 : Vec F S4096x128 .f32) (xs0 xs1 xs2 xs3 xs4 : Vec F S1x1 .f32) :
    sout0_B_4 c i a1 h1 a2 h2 a3 h3 a4 h4 a5 h5 a6 h6 a7 h7 a8 h8 hc0 hc1 x0 x1 xs0 xs1 xs2 xs3 xs4 = addf xs4 (bsum (mulf x0 x1)) := by
  unfold sout0_B_4
  rw [View.read_writes_eq_canon _ _ _ (scover0_B_4 c i a1 h1 a2 h2 a3 h3 a4 h4 a5 h5 a6 h6 a7 h7 a8 h8 hc0 hc1 x0 x1 xs0 xs1 xs2 xs3 xs4)]
  unfold kernelRun0_B
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_xy x0 x1 xs4

/-! ## The first point: the buffers are zeroed, then the block's sums added -/

theorem pay_zero0 : (k0_pay5 (F := F)) = zero11 := by unfold k0_pay5; simp only [shapeCast_self]
theorem pay_zero1 : (k0_pay6 (F := F)) = zero11 := by unfold k0_pay6; simp only [shapeCast_self]
theorem pay_zero2 : (k0_pay7 (F := F)) = zero11 := by unfold k0_pay7; simp only [shapeCast_self]
theorem pay_zero3 : (k0_pay8 (F := F)) = zero11 := by unfold k0_pay8; simp only [shapeCast_self]
theorem pay_zero4 : (k0_pay9 (F := F)) = zero11 := by unfold k0_pay9; simp only [shapeCast_self]

theorem soutA0 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 : Vec F S4096x128 .f32) :
    sout0_A_0 c i a1 h1 a2 h2 a3 h3 a4 h4 a5 h5 a6 h6 a7 h7 a8 h8 hc0 hc1 x0 x1 = addf zero11 (bsum x0) := by
  unfold sout0_A_0
  rw [View.read_writes_eq_canon _ _ _ (scover0_A_0 c i a1 h1 a2 h2 a3 h3 a4 h4 a5 h5 a6 h6 a7 h7 a8 h8 hc0 hc1 x0 x1)]
  unfold kernelRun0_A
  dsimp only
  sl_unfold_words
  rw [View.canon_cons_unit_zero (S := S1x1) hz]
  simp only [View.readAt_eq_ld, h1.read_unread, h2.read_unread, h4.read_unread, h5.read_unread, h6.read_unread,
    h7.read_unread, h8.read_unread, View.ld_unit_zero (S := S4096x128) hz, View.ld_unit_zero (S := S1x1) hz,
    View.readCov_unit_zero (S := S1x1) _ hz]
  rw [pay_zero0]
  exact pay_sum_x x0 zero11

theorem soutA1 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 : Vec F S4096x128 .f32) :
    sout0_A_1 c i a1 h1 a2 h2 a3 h3 a4 h4 a5 h5 a6 h6 a7 h7 a8 h8 hc0 hc1 x0 x1 = addf zero11 (bsum x1) := by
  unfold sout0_A_1
  rw [View.read_writes_eq_canon _ _ _ (scover0_A_1 c i a1 h1 a2 h2 a3 h3 a4 h4 a5 h5 a6 h6 a7 h7 a8 h8 hc0 hc1 x0 x1)]
  unfold kernelRun0_A
  dsimp only
  sl_unfold_words
  rw [View.canon_cons_unit_zero (S := S1x1) hz]
  simp only [View.readAt_eq_ld, h1.read_unread, h2.read_unread, h4.read_unread, h5.read_unread, h6.read_unread,
    h7.read_unread, h8.read_unread, View.ld_unit_zero (S := S4096x128) hz, View.ld_unit_zero (S := S1x1) hz,
    View.readCov_unit_zero (S := S1x1) _ hz]
  rw [pay_zero1]
  exact pay_sum_y x1 zero11

theorem soutA2 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 : Vec F S4096x128 .f32) :
    sout0_A_2 c i a1 h1 a2 h2 a3 h3 a4 h4 a5 h5 a6 h6 a7 h7 a8 h8 hc0 hc1 x0 x1 = addf zero11 (bsum (mulf x0 x0)) := by
  unfold sout0_A_2
  rw [View.read_writes_eq_canon _ _ _ (scover0_A_2 c i a1 h1 a2 h2 a3 h3 a4 h4 a5 h5 a6 h6 a7 h7 a8 h8 hc0 hc1 x0 x1)]
  unfold kernelRun0_A
  dsimp only
  sl_unfold_words
  rw [View.canon_cons_unit_zero (S := S1x1) hz]
  simp only [View.readAt_eq_ld, h1.read_unread, h2.read_unread, h4.read_unread, h5.read_unread, h6.read_unread,
    h7.read_unread, h8.read_unread, View.ld_unit_zero (S := S4096x128) hz, View.ld_unit_zero (S := S1x1) hz,
    View.readCov_unit_zero (S := S1x1) _ hz]
  rw [pay_zero2]
  exact pay_sum_xx x0 zero11

theorem soutA3 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 : Vec F S4096x128 .f32) :
    sout0_A_3 c i a1 h1 a2 h2 a3 h3 a4 h4 a5 h5 a6 h6 a7 h7 a8 h8 hc0 hc1 x0 x1 = addf zero11 (bsum (mulf x1 x1)) := by
  unfold sout0_A_3
  rw [View.read_writes_eq_canon _ _ _ (scover0_A_3 c i a1 h1 a2 h2 a3 h3 a4 h4 a5 h5 a6 h6 a7 h7 a8 h8 hc0 hc1 x0 x1)]
  unfold kernelRun0_A
  dsimp only
  sl_unfold_words
  rw [View.canon_cons_unit_zero (S := S1x1) hz]
  simp only [View.readAt_eq_ld, h1.read_unread, h2.read_unread, h4.read_unread, h5.read_unread, h6.read_unread,
    h7.read_unread, h8.read_unread, View.ld_unit_zero (S := S4096x128) hz, View.ld_unit_zero (S := S1x1) hz,
    View.readCov_unit_zero (S := S1x1) _ hz]
  rw [pay_zero3]
  exact pay_sum_yy x1 zero11

theorem soutA4 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : cond0_0 i) (hc1 : ¬cond0_1 i) (x0 x1 : Vec F S4096x128 .f32) :
    sout0_A_4 c i a1 h1 a2 h2 a3 h3 a4 h4 a5 h5 a6 h6 a7 h7 a8 h8 hc0 hc1 x0 x1 = addf zero11 (bsum (mulf x0 x1)) := by
  unfold sout0_A_4
  rw [View.read_writes_eq_canon _ _ _ (scover0_A_4 c i a1 h1 a2 h2 a3 h3 a4 h4 a5 h5 a6 h6 a7 h7 a8 h8 hc0 hc1 x0 x1)]
  unfold kernelRun0_A
  dsimp only
  sl_unfold_words
  rw [View.canon_cons_unit_zero (S := S1x1) hz]
  simp only [View.readAt_eq_ld, h1.read_unread, h2.read_unread, h4.read_unread, h5.read_unread, h6.read_unread,
    h7.read_unread, h8.read_unread, View.ld_unit_zero (S := S4096x128) hz, View.ld_unit_zero (S := S1x1) hz,
    View.readCov_unit_zero (S := S1x1) _ hz]
  rw [pay_zero4]
  exact pay_sum_xy x0 x1 zero11

/-! ## The last point: the sums are updated as at any later point, and laid out in the output block -/

theorem soutC0 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 : Vec F S4096x128 .f32) (xs0 xs1 xs2 xs3 xs4 : Vec F S1x1 .f32) :
    sout0_C_0 c i a1 h1 a2 h2 a3 h3 a4 h4 a5 h5 a6 h6 a7 h7 a8 h8 hc0 hc1 x0 x1 xs0 xs1 xs2 xs3 xs4 = addf xs0 (bsum x0) := by
  unfold sout0_C_0
  rw [View.read_writes_eq_canon _ _ _ (scover0_C_0 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_x x0 xs0

theorem soutC1 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 : Vec F S4096x128 .f32) (xs0 xs1 xs2 xs3 xs4 : Vec F S1x1 .f32) :
    sout0_C_1 c i a1 h1 a2 h2 a3 h3 a4 h4 a5 h5 a6 h6 a7 h7 a8 h8 hc0 hc1 x0 x1 xs0 xs1 xs2 xs3 xs4 = addf xs1 (bsum x1) := by
  unfold sout0_C_1
  rw [View.read_writes_eq_canon _ _ _ (scover0_C_1 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_y x1 xs1

theorem soutC2 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 : Vec F S4096x128 .f32) (xs0 xs1 xs2 xs3 xs4 : Vec F S1x1 .f32) :
    sout0_C_2 c i a1 h1 a2 h2 a3 h3 a4 h4 a5 h5 a6 h6 a7 h7 a8 h8 hc0 hc1 x0 x1 xs0 xs1 xs2 xs3 xs4 = addf xs2 (bsum (mulf x0 x0)) := by
  unfold sout0_C_2
  rw [View.read_writes_eq_canon _ _ _ (scover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_xx x0 xs2

theorem soutC3 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 : Vec F S4096x128 .f32) (xs0 xs1 xs2 xs3 xs4 : Vec F S1x1 .f32) :
    sout0_C_3 c i a1 h1 a2 h2 a3 h3 a4 h4 a5 h5 a6 h6 a7 h7 a8 h8 hc0 hc1 x0 x1 xs0 xs1 xs2 xs3 xs4 = addf xs3 (bsum (mulf x1 x1)) := by
  unfold sout0_C_3
  rw [View.read_writes_eq_canon _ _ _ (scover0_C_3 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_yy x1 xs3

theorem soutC4 (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 : Vec F S4096x128 .f32) (xs0 xs1 xs2 xs3 xs4 : Vec F S1x1 .f32) :
    sout0_C_4 c i a1 h1 a2 h2 a3 h3 a4 h4 a5 h5 a6 h6 a7 h7 a8 h8 hc0 hc1 x0 x1 xs0 xs1 xs2 xs3 xs4 = addf xs4 (bsum (mulf x0 x1)) := by
  unfold sout0_C_4
  rw [View.read_writes_eq_canon _ _ _ (scover0_C_4 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz]
  simp only [View.readAt_eq_ld, h1.read_unread, h2.read_unread, h4.read_unread, h5.read_unread, h6.read_unread,
    h7.read_unread, h8.read_unread, View.ld_unit_zero (S := S4096x128) hz, View.ld_unit_zero (S := S1x1) hz]
  exact pay_sum_xy x0 x1 xs4

theorem hz1 : (![0] : Fin 1 → Nat) = fun _ => 0 := funext fun a => by fin_cases a; rfl

/-- The five one-entry sums side by side: the output block of the last point. -/
abbrev five (s0 s1 s2 s3 s4 : Vec F S1x1 .f32) : FVec F S5 .f32 := k0_pay4 s0 s1 s2 s3 s4

/-- The output block holds the five UPDATED sums. -/
theorem outC (c : Dev nD) (i : grid0.Coords) (a1 : Memref sig .tc .vmem S4096x128 .f32) (h1 : a1.IsWhole) (a2 : Memref sig .tc .vmem S4096x128 .f32) (h2 : a2.IsWhole)
    (a3 : Memref sig .tc .vmem S5 .f32) (h3 : a3.IsWhole) (a4 : Memref sig .tc .vmem S1x1 .f32) (h4 : a4.IsWhole)
    (a5 : Memref sig .tc .vmem S1x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (hc0 : ¬cond0_0 i) (hc1 : cond0_1 i) (x0 x1 : Vec F S4096x128 .f32) (xs0 xs1 xs2 xs3 xs4 : Vec F S1x1 .f32) :
    out0_C_2 c i a1 h1 a2 h2 a3 h3 a4 h4 a5 h5 a6 h6 a7 h7 a8 h8 hc0 hc1 x0 x1 xs0 xs1 xs2 xs3 xs4
      = five (addf xs0 (bsum x0)) (addf xs1 (bsum x1)) (addf xs2 (bsum (mulf x0 x0)))
          (addf xs3 (bsum (mulf x1 x1))) (addf xs4 (bsum (mulf x0 x1))) := by
  unfold out0_C_2
  rw [View.read_writes_eq_canon _ _ _ (cover0_C_2 c i a1 h1 a2 h2 a3 h3 a4 h4 a5 h5 a6 h6 a7 h7 a8 h8 hc0 hc1 x0 x1 xs0 xs1 xs2 xs3 xs4)]
  unfold kernelRun0_C
  dsimp only
  sl_unfold_words
  rw [View.canon_unit_zero hz1]
  simp only [View.readAt_eq_ld, h1.read_unread, h2.read_unread, h4.read_unread, h5.read_unread, h6.read_unread,
    h7.read_unread, h8.read_unread, View.ld_unit_zero (S := S4096x128) hz, View.ld_unit_zero (S := S1x1) hz,
    View.readCov_unit_zero (S := S1x1) _ hz]
  rw [pay_sum_x, pay_sum_y, pay_sum_xx, pay_sum_yy, pay_sum_xy]

end Cert.KernelIdeal.KerValue

end
-- ==== Proof.KerChain.lean ====
/-
  The five running sums over the whole grid, the output array, and the arithmetic after the region.

  The grid has 32 points; point t sees block t of x and of y (4096 rows of 128). After point n each scratch
  buffer holds 0 + (its term at point 0) + … + (its term at point n), added in that order; this is proved
  by induction on the point, each of the five buffers by itself (a buffer's new value depends on its own
  old value only). The output array (five numbers) is written once, after the last point, with the five
  final sums. The host arithmetic that follows turns the five numbers into the loss.
-/
import proofs.«138697_j28741921145436_1_alg».proof.Proof.KerPieces
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ) (ρ : Dev nD → PrngReg)

/-- Block t of the first array, as the region finds it. -/
abbrev xb (c : Dev nD) (t : Fin cfg0.N) : Vec F S4096x128 .f32 := iblk m c 0 t
/-- Block t of the second array. -/
abbrev yb (c : Dev nD) (t : Fin cfg0.N) : Vec F S4096x128 .f32 := iblk m c 1 t

/-- 0 + f 0 + f 1 + … + f n, added in this order. -/
def runSum (f : (n : ℕ) → n < cfg0.N → Vec F S1x1 .f32) : (n : ℕ) → n < cfg0.N → Vec F S1x1 .f32
  | 0, h => addf zero11 (f 0 h)
  | n + 1, h => addf (runSum f n (Nat.lt_of_succ_lt h)) (f (n + 1) h)

/-- What point n adds to running sum 0: the sum over the block of x. -/
def term0 (c : Dev nD) : (n : ℕ) → n < cfg0.N → Vec F S1x1 .f32 := fun n h => bsum (xb m c ⟨n, h⟩)
/-- What point n adds to running sum 1: the sum over the block of y. -/
def term1 (c : Dev nD) : (n : ℕ) → n < cfg0.N → Vec F S1x1 .f32 := fun n h => bsum (yb m c ⟨n, h⟩)
/-- What point n adds to running sum 2: the sum over the squares of the block of x. -/
def term2 (c : Dev nD) : (n : ℕ) → n < cfg0.N → Vec F S1x1 .f32 := fun n h => bsum (mulf (xb m c ⟨n, h⟩) (xb m c ⟨n, h⟩))
/-- What point n adds to running sum 3: the sum over the squares of the block of y. -/
def term3 (c : Dev nD) : (n : ℕ) → n < cfg0.N → Vec F S1x1 .f32 := fun n h => bsum (mulf (yb m c ⟨n, h⟩) (yb m c ⟨n, h⟩))
/-- What point n adds to running sum 4: the sum over the products of the two blocks. -/
def term4 (c : Dev nD) : (n : ℕ) → n < cfg0.N → Vec F S1x1 .f32 := fun n h => bsum (mulf (xb m c ⟨n, h⟩) (yb m c ⟨n, h⟩))

/-! ## After point n each buffer holds its running sum -/

theorem comp0 (c : Dev nD) : ∀ (n : ℕ) (h : n < cfg0.N), (outsAt0 m c n h).2.1 = runSum (term0 m c) n h
  | 0, h => by
    rw [outsAt0_A m c ⟨0, h⟩ rfl (by show ¬(0 : ℕ) % 32 = 31; decide)]
    dsimp only
    rw [soutA0]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [soutC0]
      show addf (outsAt0 m c n _).2.1 _ = addf (runSum (term0 m c) n _) _
      rw [comp0 c n]
      rfl
    · rw [outsAt0_B m c ⟨n + 1, h⟩ h0 h1]
      dsimp only
      rw [soutB0]
      show addf (outsAt0 m c n _).2.1 _ = addf (runSum (term0 m c) n _) _
      rw [comp0 c n]
      rfl

theorem comp1 (c : Dev nD) : ∀ (n : ℕ) (h : n < cfg0.N), (outsAt0 m c n h).2.2.1 = runSum (term1 m c) n h
  | 0, h => by
    rw [outsAt0_A m c ⟨0, h⟩ rfl (by show ¬(0 : ℕ) % 32 = 31; decide)]
    dsimp only
    rw [soutA1]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [soutC1]
      show addf (outsAt0 m c n _).2.2.1 _ = addf (runSum (term1 m c) n _) _
      rw [comp1 c n]
      rfl
    · rw [outsAt0_B m c ⟨n + 1, h⟩ h0 h1]
      dsimp only
      rw [soutB1]
      show addf (outsAt0 m c n _).2.2.1 _ = addf (runSum (term1 m c) n _) _
      rw [comp1 c n]
      rfl

theorem comp2 (c : Dev nD) : ∀ (n : ℕ) (h : n < cfg0.N), (outsAt0 m c n h).2.2.2.1 = runSum (term2 m c) n h
  | 0, h => by
    rw [outsAt0_A m c ⟨0, h⟩ rfl (by show ¬(0 : ℕ) % 32 = 31; decide)]
    dsimp only
    rw [soutA2]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [soutC2]
      show addf (outsAt0 m c n _).2.2.2.1 _ = addf (runSum (term2 m c) n _) _
      rw [comp2 c n]
      rfl
    · rw [outsAt0_B m c ⟨n + 1, h⟩ h0 h1]
      dsimp only
      rw [soutB2]
      show addf (outsAt0 m c n _).2.2.2.1 _ = addf (runSum (term2 m c) n _) _
      rw [comp2 c n]
      rfl

theorem comp3 (c : Dev nD) : ∀ (n : ℕ) (h : n < cfg0.N), (outsAt0 m c n h).2.2.2.2.1 = runSum (term3 m c) n h
  | 0, h => by
    rw [outsAt0_A m c ⟨0, h⟩ rfl (by show ¬(0 : ℕ) % 32 = 31; decide)]
    dsimp only
    rw [soutA3]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [soutC3]
      show addf (outsAt0 m c n _).2.2.2.2.1 _ = addf (runSum (term3 m c) n _) _
      rw [comp3 c n]
      rfl
    · rw [outsAt0_B m c ⟨n + 1, h⟩ h0 h1]
      dsimp only
      rw [soutB3]
      show addf (outsAt0 m c n _).2.2.2.2.1 _ = addf (runSum (term3 m c) n _) _
      rw [comp3 c n]
      rfl

theorem comp4 (c : Dev nD) : ∀ (n : ℕ) (h : n < cfg0.N), (outsAt0 m c n h).2.2.2.2.2 = runSum (term4 m c) n h
  | 0, h => by
    rw [outsAt0_A m c ⟨0, h⟩ rfl (by show ¬(0 : ℕ) % 32 = 31; decide)]
    dsimp only
    rw [soutA4]
    rfl
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [soutC4]
      show addf (outsAt0 m c n _).2.2.2.2.2 _ = addf (runSum (term4 m c) n _) _
      rw [comp4 c n]
      rfl
    · rw [outsAt0_B m c ⟨n + 1, h⟩ h0 h1]
      dsimp only
      rw [soutB4]
      show addf (outsAt0 m c n _).2.2.2.2.2 _ = addf (runSum (term4 m c) n _) _
      rw [comp4 c n]
      rfl

/-! ## The output block of the last point, and the output array -/

theorem lt31 : 31 < cfg0.N := by rw [show cfg0.N = 32 from N_0]; decide
theorem lt30 : 30 < cfg0.N := by rw [show cfg0.N = 32 from N_0]; decide

/-- The last grid point. -/
abbrev t31 : Fin cfg0.N := ⟨31, lt31⟩

/-- The five final sums side by side: what the output array ends holding. -/
abbrev result (c : Dev nD) : Buf (Elt F) ((c : Thread nD τ).loc main_v2) :=
  five (runSum (term0 m c) 31 lt31) (runSum (term1 m c) 31 lt31) (runSum (term2 m c) 31 lt31)
    (runSum (term3 m c) 31 lt31) (runSum (term4 m c) 31 lt31)

theorem out_last (c : Dev nD) : (outsAt0 m c 31 lt31).1 = result m c := by
  have h0 : ¬(t31 : Fin cfg0.N).val % 32 = 0 := by decide
  rw [outsAt0_C m c t31 h0 rfl]
  dsimp only
  rw [outC]
  show five (addf (outsAt0 m c 30 _).2.1 _) (addf (outsAt0 m c 30 _).2.2.1 _) (addf (outsAt0 m c 30 _).2.2.2.1 _)
      (addf (outsAt0 m c 30 _).2.2.2.2.1 _) (addf (outsAt0 m c 30 _).2.2.2.2.2 _) = _
  rw [comp0 m c 30, comp1 m c 30, comp2 m c 30, comp3 m c 30, comp4 m c 30]
  rfl

/-- The one write-back of the output window, after the last point, writes the five final sums: its block is the whole array. -/
theorem flushed_eq (c : Dev nD) (t : Fin cfg0.N) (hf : (cfg0.win 2).flush t = true) :
    (dats m 0 c).flushed 2 t = ((cfg0.win 2).blk t).view.read (Elt F) (result m c) := by
  have hN : cfg0.N = 32 := N_0
  have h31 : t.val = 31 := by have := (flush0_2 t).mp hf; have := t.isLt; omega
  obtain rfl : t = t31 := Fin.ext h31
  show (cfg0.win 2).cut (grid0.coords t31) ((dats m 0 c).after 2 t31) = _
  rw [after0_2, out_last]
  have hz' : (fun a => win0_2.index t31 a * main_v2.ty.shape.size a) = fun _ => 0 := funext fun a => by fin_cases a; decide
  exact (Memref.read_access_unit_zero (Elt F) main_v2 hz' (fun a => by rw [congrFun hz' a]; simp) (result m c)).symm

/-- So the output array ends holding the five final sums. -/
theorem final_out (c : Dev nD) : (dats m 0 c).arrAt 2 cfg0.N = result m c :=
  (dats m 0 c).arrAt_eq_of_cover 2 (result m c) (flushed_eq m c) fun i =>
    ⟨t31, (flush0_2 t31).mpr rfl, by
      show i ∈ ((View.whole main_v2).slice (win0_2.rect t31)).set
      rw [View.set_slice_whole, Rect.mem_set_unit]
      intro a
      have h0 : (i 0 : Nat) < 5 := (i 0).isLt
      match a with
      | ⟨0, _⟩ =>
        show win0_2.index t31 0 * win0_2.size 0 ≤ (i 0 : Nat)
          ∧ (i 0 : Nat) < win0_2.index t31 0 * win0_2.size 0 + win0_2.xsize (grid0.coords t31) 0
        rw [show win0_2.index t31 0 * win0_2.size 0 = 0 from by decide +kernel,
          show win0_2.xsize (grid0.coords t31) 0 = 5 from by decide +kernel]
        omega⟩

end Cert.KernelIdeal.KerValue

end
-- ==== Proof.KerTail.lean ====
/-
  The arithmetic after the region, as one function of the five sums, and the program's run read back.

  After the region the program slices the five-entry array into five scalars s₁ = Σx, s₂ = Σy, s₁₁ = Σx²,
  s₂₂ = Σy², s₁₂ = Σxy and computes, with n = 2²⁴ and ε the float nearest 0.001,
    a = s₁/n, b = s₂/n, mₐ = a + ε, m_b = b + ε,
    var₁ = (s₁₁ − (n·a)·a)/(n − 1), var₂ = (s₂₂ − (n·b)·b)/(n − 1),
    cov = (((s₁₂ − m_b·s₁) − mₐ·s₂) + (n·mₐ)·m_b)/(n − 1),
    cor = cov/(√var₁·√var₂ + ε),  loss = ½·((cor + ε)·(cor + ε)),
  returned as a one-entry array.
-/
import proofs.«138697_j28741921145436_1_alg».proof.Proof.KerChain

set_option maxRecDepth 16384

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

/-- The loss from the five-entry array of sums: the host operations after the region, composed. -/
def tail (v : FVec F S5 .f32) : FVec F S1 .f32 :=
  let s1 : FVec F S_ .f32 := shapeCast S_ (extractStridedSlice S1 ![0] v slices_S5_S1_0) shapeCasts_S1_S_
  let s2 : FVec F S_ .f32 := shapeCast S_ (extractStridedSlice S1 ![1] v slices_S5_S1_1) shapeCasts_S1_S_
  let s11 : FVec F S_ .f32 := shapeCast S_ (extractStridedSlice S1 ![2] v slices_S5_S1_2) shapeCasts_S1_S_
  let s22 : FVec F S_ .f32 := shapeCast S_ (extractStridedSlice S1 ![3] v slices_S5_S1_3) shapeCasts_S1_S_
  let s12 : FVec F S_ .f32 := shapeCast S_ (extractStridedSlice S1 ![4] v slices_S5_S1_4) shapeCasts_S1_S_
  let n : FVec F S_ .f32 := constant S_ .f32 0x4B800000#32
  let eps : FVec F S_ .f32 := constant S_ .f32 0x3A83126F#32
  let one : FVec F S_ .f32 := constant S_ .f32 0x3F800000#32
  let half : FVec F S_ .f32 := constant S_ .f32 0x3F000000#32
  let a : FVec F S_ .f32 := Host.divf s1 n
  let b : FVec F S_ .f32 := Host.divf s2 n
  let ma : FVec F S_ .f32 := addf a eps
  let mb : FVec F S_ .f32 := addf b eps
  let var1 : FVec F S_ .f32 := Host.divf (subf s11 (mulf (mulf n a) a)) (subf n one)
  let var2 : FVec F S_ .f32 := Host.divf (subf s22 (mulf (mulf n b) b)) (subf n one)
  let cov : FVec F S_ .f32 :=
    Host.divf (addf (subf (subf s12 (mulf mb s1)) (mulf ma s2)) (mulf (mulf n ma) mb)) (subf n one)
  let cor : FVec F S_ .f32 := Host.divf cov (addf (mulf (Host.sqrt var1) (Host.sqrt var2)) eps)
  shapeCast S1 (mulf half (mulf (addf cor eps) (addf cor eps))) shapeCasts_S_S1

-- fifty-eight operations are folded, and the composed term repeats shared subterms
set_option maxHeartbeats 2000000 in
/-- From any contents, the host operations after the region leave in the result buffer the tail of what the
    five-entry buffer held. -/
theorem tail_after (W : Valuation τ sig (Elt F)) :
    StableHlo.after (hostOps1 (F := F)) W (Proc.devRef .tc main_v44) = tail (W (Proc.devRef .tc main_v2)) := by
  after_results_simp
  rfl

variable (m : (ℓ : Loc nD τ sig) → Buf (Elt F) ℓ) (ρ : Dev nD → PrngReg)

/-- The result buffer after the host operations that follow the region: the tail of the five final sums. -/
theorem tail_run (c : Dev nD) :
    Pipeline.afterTail₀ cfgs (dats m) 0 (V0 m) [hostOps1] c main_v44 = tail (result m c) := by
  show StableHlo.after (List.flatten [hostOps1])
      (Pipeline.withArrays spec0 c (V0 m c) fun w => (dats m 0 c).arrAt w cfg0.N) (Proc.devRef .tc main_v44) = _
  rw [show List.flatten [hostOps1 (F := F)] = hostOps1 from List.append_nil _, tail_after]
  exact congrArg tail ((Pipeline.withArrays_arr spec0 launch0.win.arr_inj c _ _ 2).trans (final_out m c))

/-- The run, read: the result at the tail of the five final sums, the two arguments unchanged. -/
theorem run : θ_run defs (onTc (τ := τ) (main (F := F))) ⟨m, fun _ => 0, ρ⟩ fun r => ∀ c : Dev nD,
      r.2.mem ((c.tc : Thread nD τ).loc main_v44) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v44 (Pipeline.mem_restRefs_of main_v44 rfl (by decide))).trans (tail_run m c),
     ((h c).2 main_arg0 (Pipeline.mem_restRefs_of main_arg0 rfl (by decide))).trans (W_main_arg0 m (dats m) c),
     ((h c).2 main_arg1 (Pipeline.mem_restRefs_of main_arg1 rfl (by decide))).trans (W_main_arg1 m (dats m) c)⟩)
    (run_main m ρ)

end Cert.KernelIdeal.KerValue

end
-- ==== Proof.Spec.lean ====
/-
  The two scalar formulas of the correlation loss, on the extended reals, with no program in sight.

  Both programs compute  loss = 1/2 · (cor + ε)²,  cor = cov / (√var₁ · √var₂ + ε),  from two arrays
  x, y of n = 2²⁴ numbers.  They differ in how cov and the variances are reached:

    * one side first takes the five raw sums  Σx, Σy, Σx², Σy², Σxy  and then uses the expanded forms
        var  = (Σx² − n·(Σx/n)²) / (n − 1),
        cov  = (Σxy − m₂·Σx − m₁·Σy + n·m₁·m₂) / (n − 1),      mₖ = (Σ·/n) + ε;
    * the other side centres first:
        var  = Σ (xᵢ − Σx/n)² / (n − 1),      cov = Σ (xᵢ − m₁)(yᵢ − m₂) / (n − 1).

  The definitions below spell each side with the exact operations and float constants the programs use
  (division is the extended reals' `Ideal.div`, the square root `Ideal.sqrt`), so that each program's
  result can be identified with one of them and the two can then be compared by algebra alone.
-/
import Idealize.ShloMosaic.PureOps.Ideal
import Idealize.ShloMosaic.PureOps.Ideal.Laws

noncomputable section

namespace ContrastLoss

open Idealize.ShloMosaic

/-! ## The float constants, as the extended reals their patterns denote -/

/-- n = 2²⁴ = 16777216, the length of each array. -/
def cN : EReal := Ideal.ofBits .f32 0x4B800000#32
/-- n − 1 = 16777215 as a single constant. -/
def cNm1 : EReal := Ideal.ofBits .f32 0x4B7FFFFF#32
/-- ε, the float nearest to 0.001. Its exact value never matters: it is the same on both sides. -/
def cEps : EReal := Ideal.ofBits .f32 0x3A83126F#32
def cOne : EReal := Ideal.ofBits .f32 0x3F800000#32
def cHalf : EReal := Ideal.ofBits .f32 0x3F000000#32
def cZero : EReal := Ideal.ofBits .f32 0x00000000#32

theorem cZero_eq : cZero = 0 := by
  simp [cZero, Ideal.ofBits, Ideal.ieee]

theorem cN_eq : cN = ((16777216 : ℝ) : EReal) := by
  simp [cN, Ideal.ofBits, Ideal.ieee, -EReal.coe_mul]; norm_num

theorem cNm1_eq : cNm1 = ((16777215 : ℝ) : EReal) := by
  simp [cNm1, Ideal.ofBits, Ideal.ieee, -EReal.coe_mul]

theorem cOne_eq : cOne = ((1 : ℝ) : EReal) := by
  simp [cOne, Ideal.ofBits, Ideal.ieee, -EReal.coe_mul]; norm_num

/-- ε is a real number (which one is irrelevant). -/
theorem cEps_real : ∃ e : ℝ, cEps = (e : EReal) := by
  simp [cEps, Ideal.ofBits, Ideal.ieee, -EReal.coe_mul]
  try exact ⟨_, rfl⟩

/-- 1/2 is a real number (which one is irrelevant). -/
theorem cHalf_real : ∃ h : ℝ, cHalf = (h : EReal) := by
  simp [cHalf, Ideal.ofBits, Ideal.ieee, -EReal.coe_mul]
  try exact ⟨_, rfl⟩

/-! ## The part both sides share: from the covariance and the two variances to the loss -/

def lossOf (cov v1 v2 : EReal) : EReal :=
  cHalf * ((Ideal.div cov (Ideal.sqrt v1 * Ideal.sqrt v2 + cEps) + cEps)
    * (Ideal.div cov (Ideal.sqrt v1 * Ideal.sqrt v2 + cEps) + cEps))

/-! ## From the five raw sums (the expanded forms) -/

/-- (Σx² − (n · (Σx/n)) · (Σx/n)) / (n − 1). -/
def sumsVar (s ss : EReal) : EReal :=
  Ideal.div (ss - cN * Ideal.div s cN * Ideal.div s cN) (cN - cOne)

/-- (((Σxy − m₂ · Σx) − m₁ · Σy) + (n · m₁) · m₂) / (n − 1), with mₖ = Σ·/n + ε. -/
def sumsCov (s1 s2 s12 : EReal) : EReal :=
  Ideal.div
    (s12 - (Ideal.div s2 cN + cEps) * s1 - (Ideal.div s1 cN + cEps) * s2
      + cN * (Ideal.div s1 cN + cEps) * (Ideal.div s2 cN + cEps))
    (cN - cOne)

def sumsLoss (s1 s2 s11 s22 s12 : EReal) : EReal :=
  lossOf (sumsCov s1 s2 s12) (sumsVar s1 s11) (sumsVar s2 s22)

/-! ## Centred first -/

section
variable {ι : Type*} [Fintype ι]

/-- (0 + Σx) / n. -/
def mean (x : ι → EReal) : EReal := Ideal.div (cZero + ∑ i, x i) cN

/-- (0 + Σ (xᵢ − mean)²) / (n − d); `d` is the degrees-of-freedom correction, 1 in use. -/
def centredVar (x : ι → EReal) (d : EReal) : EReal :=
  Ideal.div (cZero + ∑ i, (x i - mean x) * (x i - mean x)) (cN - d)

/-- (0 + Σ (xᵢ − (mean x + ε)) (yᵢ − (mean y + ε))) / (n − 1), the divisor one constant. -/
def centredCov (x y : ι → EReal) : EReal :=
  Ideal.div (cZero + ∑ i, (x i - (mean x + cEps)) * (y i - (mean y + cEps))) cNm1

def centredLoss (x y : ι → EReal) (d : EReal) : EReal :=
  lossOf (centredCov x y) (centredVar x d) (centredVar y d)

end

end ContrastLoss

end
-- ==== Proof.Algebra.lean ====
/-
  The centred and the expanded forms of the correlation loss agree on real inputs.

  With n = 2²⁴ entries, S = Σx and m = S/n:
      Σ (xᵢ − m)² = Σx² − 2·m·S + n·m² = Σx² − n·(S/n)·(S/n),
  and with m₁ = Σx/n + ε, m₂ = Σy/n + ε:
      Σ (xᵢ − m₁)(yᵢ − m₂) = Σxy − m₂·Σx − m₁·Σy + n·m₁·m₂.
  Both divisors are n − 1 = 16777215.  The extended reals do not distribute at the infinities, so every
  quantity is first shown to be (the image of) a real number and the algebra is done in ℝ.
-/
import proofs.«138697_j28741921145436_1_alg».proof.Proof.Spec
import Mathlib.Data.Fintype.BigOperators
import Mathlib.Logic.Equiv.Fin.Basic
import Mathlib.Data.EReal.Operations
import Mathlib.Algebra.BigOperators.Ring.Finset
import Mathlib.Algebra.BigOperators.Group.Finset.Basic
import Mathlib.Tactic.Ring
import Mathlib.Tactic.NormNum

noncomputable section

namespace ContrastLoss

open Idealize.ShloMosaic

namespace Alg

/-! ## Real numbers inside the extended reals -/

/-- The inclusion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor nonzero, is the real quotient. -/
theorem div_coe_coe (a b : ℝ) (hb : b ≠ 0) :
    Ideal.div (a : EReal) (b : EReal) = ((a / b : ℝ) : EReal) := by
  rw [Ideal.div_coe hb, ← EReal.coe_mul, mul_one_div]

/-! ## The two real identities -/

/-- Σ (aᵢ − m)² = Σa² − 2·m·Σa + n·m². -/
theorem var_real {ι : Type*} [Fintype ι] (a : ι → ℝ) (m : ℝ) :
    ∑ i, (a i - m) * (a i - m)
      = (∑ i, a i * a i) - 2 * m * (∑ i, a i) + (Fintype.card ι : ℝ) * (m * m) := by
  have h : ∀ i, (a i - m) * (a i - m) = a i * a i - 2 * m * a i + m * m := fun i => by ring
  simp_rw [h]
  rw [Finset.sum_add_distrib, Finset.sum_sub_distrib, ← Finset.mul_sum, Finset.sum_const,
    Finset.card_univ, nsmul_eq_mul]

/-- Σ (aᵢ − p)(bᵢ − q) = Σab − q·Σa − p·Σb + n·p·q. -/
theorem cov_real {ι : Type*} [Fintype ι] (a b : ι → ℝ) (p q : ℝ) :
    ∑ i, (a i - p) * (b i - q)
      = (∑ i, a i * b i) - q * (∑ i, a i) - p * (∑ i, b i) + (Fintype.card ι : ℝ) * (p * q) := by
  have h : ∀ i, (a i - p) * (b i - q) = a i * b i - q * a i - p * b i + p * q := fun i => by ring
  simp_rw [h]
  rw [Finset.sum_add_distrib, Finset.sum_sub_distrib, Finset.sum_sub_distrib, ← Finset.mul_sum,
    ← Finset.mul_sum, Finset.sum_const, Finset.card_univ, nsmul_eq_mul]

/-! ## Each definition, on real arguments, is a real number -/

theorem mean_coe {ι : Type*} [Fintype ι] (a : ι → ℝ) :
    mean (fun i => (a i : EReal)) = (((∑ i, a i) / 16777216 : ℝ) : EReal) := by
  rw [mean, cZero_eq, zero_add, cN_eq, ← coe_sum, div_coe_coe _ _ (by norm_num)]

theorem centredVar_coe {ι : Type*} [Fintype ι] (a : ι → ℝ) :
    centredVar (fun i => (a i : EReal)) ((1 : ℝ) : EReal)
      = (((∑ i, (a i - (∑ j, a j) / 16777216) * (a i - (∑ j, a j) / 16777216)) / 16777215 : ℝ)
          : EReal) := by
  rw [centredVar, mean_coe, cZero_eq, zero_add, cN_eq]
  simp only [← EReal.coe_sub, ← EReal.coe_mul]
  rw [← coe_sum, div_coe_coe _ _ (by norm_num)]
  norm_num

theorem centredCov_coe {ι : Type*} [Fintype ι] (a b : ι → ℝ) (e : ℝ) (he : cEps = (e : EReal)) :
    centredCov (fun i => (a i : EReal)) (fun i => (b i : EReal))
      = (((∑ i, (a i - ((∑ j, a j) / 16777216 + e)) * (b i - ((∑ j, b j) / 16777216 + e)))
            / 16777215 : ℝ) : EReal) := by
  rw [centredCov, mean_coe, mean_coe, cZero_eq, zero_add, cNm1_eq, he]
  simp only [← EReal.coe_add, ← EReal.coe_sub, ← EReal.coe_mul]
  rw [← coe_sum, div_coe_coe _ _ (by norm_num)]

theorem sumsVar_coe (s ss : ℝ) :
    sumsVar (s : EReal) (ss : EReal)
      = (((ss - 16777216 * (s / 16777216) * (s / 16777216)) / 16777215 : ℝ) : EReal) := by
  rw [sumsVar, cN_eq, cOne_eq, div_coe_coe _ _ (by norm_num : (16777216 : ℝ) ≠ 0)]
  simp only [← EReal.coe_sub, ← EReal.coe_mul]
  rw [div_coe_coe _ _ (by norm_num)]
  norm_num

theorem sumsCov_coe (s1 s2 s12 e : ℝ) (he : cEps = (e : EReal)) :
    sumsCov (s1 : EReal) (s2 : EReal) (s12 : EReal)
      = (((s12 - (s2 / 16777216 + e) * s1 - (s1 / 16777216 + e) * s2
            + 16777216 * (s1 / 16777216 + e) * (s2 / 16777216 + e)) / 16777215 : ℝ) : EReal) := by
  rw [sumsCov, cN_eq, cOne_eq, he, div_coe_coe _ _ (by norm_num : (16777216 : ℝ) ≠ 0),
    div_coe_coe _ _ (by norm_num : (16777216 : ℝ) ≠ 0)]
  simp only [← EReal.coe_add, ← EReal.coe_sub, ← EReal.coe_mul]
  rw [div_coe_coe _ _ (by norm_num)]
  norm_num

end Alg

open Alg

/-! ## The comparison -/

theorem centredLoss_eq_sumsLoss {ι : Type*} [Fintype ι] (hcard : Fintype.card ι = 16777216)
    (x y : ι → EReal) (hx : ∀ i, ∃ r : ℝ, x i = (r : EReal)) (hy : ∀ i, ∃ r : ℝ, y i = (r : EReal)) :
    centredLoss x y ((1 : ℝ) : EReal)
      = sumsLoss (∑ i, x i) (∑ i, y i) (∑ i, x i * x i) (∑ i, y i * y i) (∑ i, x i * y i) := by
  choose a ha using hx
  choose b hb using hy
  obtain rfl : x = fun i => (a i : EReal) := funext ha
  obtain rfl : y = fun i => (b i : EReal) := funext hb
  obtain ⟨e, he⟩ := cEps_real
  have hn : (Fintype.card ι : ℝ) = 16777216 := by rw [hcard]; norm_num
  simp only [← EReal.coe_mul, ← coe_sum]
  rw [centredLoss, sumsLoss, centredVar_coe, centredVar_coe, centredCov_coe a b e he,
    sumsVar_coe, sumsVar_coe, sumsCov_coe _ _ _ e he, var_real, var_real, cov_real, hn]
  have hv : ∀ (S Q : ℝ), (Q - 2 * (S / 16777216) * S + 16777216 * (S / 16777216 * (S / 16777216))) / 16777215
      = (Q - 16777216 * (S / 16777216) * (S / 16777216)) / 16777215 := fun S Q => by ring
  have hc : ∀ (S T P : ℝ),
      (P - (T / 16777216 + e) * S - (S / 16777216 + e) * T
          + 16777216 * ((S / 16777216 + e) * (T / 16777216 + e))) / 16777215
      = (P - (T / 16777216 + e) * S - (S / 16777216 + e) * T
          + 16777216 * (S / 16777216 + e) * (T / 16777216 + e)) / 16777215 := fun S T P => by ring
  rw [hv, hv, hc]

/-! ## Regrouping a sum over 2²⁴ = 32 · 4096 · 128 indices

  An index i < 2²⁴ is written uniquely as i = (t · 4096 + r) · 128 + l with t < 32, r < 4096, l < 128.
  The general step: for m · n = N, the map (i, j) ↦ i · n + j is a bijection Fin m × Fin n → Fin N, so
  a sum over Fin N is a double sum.  The three-level statement is two uses of that step:
  32 · 4096 = 131072 for the outer pair, and 131072 · 128 = 2²⁴ for that pair with the innermost index. -/

/-- For m · n = N, a sum over Fin N is the double sum over (i, j) ↦ i · n + j. -/
theorem Alg.sum_fin_mul {M : Type*} [AddCommMonoid M] {m n N : ℕ} (h : m * n = N)
    (hb : ∀ (i : Fin m) (j : Fin n), i.val * n + j.val < N) (g : Fin N → M) :
    ∑ i : Fin m, ∑ j : Fin n, g ⟨i.val * n + j.val, hb i j⟩ = ∑ k : Fin N, g k := by
  subst h
  rw [← Fintype.sum_prod_type' (fun (i : Fin m) (j : Fin n) => g ⟨i.val * n + j.val, hb i j⟩)]
  refine Fintype.sum_equiv finProdFinEquiv _ _ (fun p => ?_)
  congr 1
  apply Fin.ext
  simp only [finProdFinEquiv, Equiv.coe_fn_mk]
  rw [Nat.add_comm, Nat.mul_comm]

theorem sum_blocks {M : Type*} [AddCommMonoid M] (f : Fin 16777216 → M) :
    ∑ t : Fin 32, ∑ r : Fin 4096, ∑ l : Fin 128,
      f ⟨(t.val * 4096 + r.val) * 128 + l.val, by have := t.isLt; have := r.isLt; have := l.isLt; omega⟩
    = ∑ i : Fin 16777216, f i := by
  rw [← sum_fin_mul (m := 131072) (n := 128) (N := 16777216) rfl
    (fun q l => by have := q.isLt; have := l.isLt; omega) f]
  exact sum_fin_mul (m := 32) (n := 4096) (N := 131072) rfl
    (fun t r => by have := t.isLt; have := r.isLt; omega)
    (fun q => ∑ l : Fin 128, f ⟨q.val * 128 + l.val, by have := q.isLt; have := l.isLt; omega⟩)

end ContrastLoss

end
-- ==== Proof.KerIdeal.lean ====
/-
  The kernel's result on the extended reals: the expanded formula at the five sums over the whole arrays.

  Three readings meet here. The arithmetic after the region, entry by entry, is `sumsLoss` of the five
  entries of its argument. Entry k of the five-entry array is running sum k after the last point. And over
  the extended reals a running sum is a plain sum, a block's term is the double sum over the block's rows
  and lanes, and entry (r, l) of block t is entry (4096·t + r)·128 + l of the flat argument array, so the
  sum over all points, rows and lanes is the sum over the whole array.
-/
import proofs.«138697_j28741921145436_1_alg».proof.Proof.KerTail
import proofs.«138697_j28741921145436_1_alg».proof.Proof.Spec
import proofs.«138697_j28741921145436_1_alg».proof.Proof.Algebra
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen

/-! ## The tail, entry by entry -/

/-- Slicing out entry k of a five-entry array and viewing it as a scalar reads entry k. -/
theorem entry_apply (v : FVec Ideal S5 .f32) (k : Fin 5) (off : Fin 1 → Nat) (hoff : off = ![k.val])
    (h : S5.Slices off S1) (h' : S1.ShapeCasts S_) (j : S_.Idx) :
    shapeCast S_ (extractStridedSlice S1 off v h) h' j = v (ix1 k) := by
  subst hoff
  rw [shapeCast_apply _ h' j (ix1 (0 : Fin 1)) (by
    rw [Shape.rowMajor_val_one]
    show (0 : ℕ) = (Shape.rowMajorPi _ j).val
    rw [Shape.rowMajorPi_zero])]
  exact extractStridedSlice_apply _ v h (ix1 (0 : Fin 1)) (ix1 k) (fun a => by
    match a with
    | ⟨0, _⟩ => show k.val = k.val + 0; omega)

theorem tail_apply (v : FVec Ideal S5 .f32) (j : S1.Idx) :
    tail (F := Ideal) v j
      = ContrastLoss.sumsLoss (v (ix1 (0 : Fin 5))) (v (ix1 (1 : Fin 5))) (v (ix1 (2 : Fin 5)))
          (v (ix1 (3 : Fin 5))) (v (ix1 (4 : Fin 5))) := by
  unfold tail
  rw [shapeCast_apply _ shapeCasts_S_S1 j ix0 (by
    rw [Shape.rowMajor_val_one]
    have : (j 0).val < 1 := (j 0).isLt
    show (Shape.rowMajorPi _ ix0).val = (j 0).val
    rw [Shape.rowMajorPi_zero]; omega)]
  simp only [mulf_apply, addf_apply, subf_apply, Host.divf, Host.sqrt, constant_apply, Ideal.hostDivf_def,
    Ideal.hostUnary_sqrt_def,
    entry_apply v (0 : Fin 5) ![0] rfl, entry_apply v (1 : Fin 5) ![1] rfl, entry_apply v (2 : Fin 5) ![2] rfl,
    entry_apply v (3 : Fin 5) ![3] rfl, entry_apply v (4 : Fin 5) ![4] rfl]
  rfl

/-! ## The entries of the five-entry array -/

theorem five_apply0 (s0 s1 s2 s3 s4 : Vec Ideal S1x1 .f32) :
    five s0 s1 s2 s3 s4 (ix1 (0 : Fin 5)) = s0 (ix2 (0 : Fin 1) (0 : Fin 1)) := by
  unfold five k0_pay4
  refine (concatenate_apply_piece (α := EReal) (t := S5) (0 : Fin S5.rank)
    [⟨S1, shapeCast S1 s0 shapeCasts_S1x1_S1⟩, ⟨S1, shapeCast S1 s1 shapeCasts_S1x1_S1⟩,
      ⟨S1, shapeCast S1 s2 shapeCasts_S1x1_S1⟩, ⟨S1, shapeCast S1 s3 shapeCasts_S1x1_S1⟩,
      ⟨S1, shapeCast S1 s4 shapeCasts_S1x1_S1⟩]
    concatenates_S1_S1_S1_S1_S1_S5_d0 (ix1 (0 : Fin 5)) 0 (by show 0 < 5; omega) S1 (shapeCast S1 s0 shapeCasts_S1x1_S1) rfl rfl
    0 rfl (ix1 (0 : Fin 1)) (fun b hb => (hb (Fin.ext (by have h1 : b.val < 1 := b.isLt; show b.val = 0; omega))).elim)
    rfl).trans ?_
  exact shapeCast_apply _ shapeCasts_S1x1_S1 (ix1 (0 : Fin 1)) (ix2 (0 : Fin 1) (0 : Fin 1))
    (by rw [Shape.rowMajor_val_two, Shape.rowMajor_val_one]; rfl)

theorem five_apply1 (s0 s1 s2 s3 s4 : Vec Ideal S1x1 .f32) :
    five s0 s1 s2 s3 s4 (ix1 (1 : Fin 5)) = s1 (ix2 (0 : Fin 1) (0 : Fin 1)) := by
  unfold five k0_pay4
  refine (concatenate_apply_piece (α := EReal) (t := S5) (0 : Fin S5.rank)
    [⟨S1, shapeCast S1 s0 shapeCasts_S1x1_S1⟩, ⟨S1, shapeCast S1 s1 shapeCasts_S1x1_S1⟩,
      ⟨S1, shapeCast S1 s2 shapeCasts_S1x1_S1⟩, ⟨S1, shapeCast S1 s3 shapeCasts_S1x1_S1⟩,
      ⟨S1, shapeCast S1 s4 shapeCasts_S1x1_S1⟩]
    concatenates_S1_S1_S1_S1_S1_S5_d0 (ix1 (1 : Fin 5)) 1 (by show 1 < 5; omega) S1 (shapeCast S1 s1 shapeCasts_S1x1_S1) rfl rfl
    1 rfl (ix1 (0 : Fin 1)) (fun b hb => (hb (Fin.ext (by have h1 : b.val < 1 := b.isLt; show b.val = 0; omega))).elim)
    rfl).trans ?_
  exact shapeCast_apply _ shapeCasts_S1x1_S1 (ix1 (0 : Fin 1)) (ix2 (0 : Fin 1) (0 : Fin 1))
    (by rw [Shape.rowMajor_val_two, Shape.rowMajor_val_one]; rfl)

theorem five_apply2 (s0 s1 s2 s3 s4 : Vec Ideal S1x1 .f32) :
    five s0 s1 s2 s3 s4 (ix1 (2 : Fin 5)) = s2 (ix2 (0 : Fin 1) (0 : Fin 1)) := by
  unfold five k0_pay4
  refine (concatenate_apply_piece (α := EReal) (t := S5) (0 : Fin S5.rank)
    [⟨S1, shapeCast S1 s0 shapeCasts_S1x1_S1⟩, ⟨S1, shapeCast S1 s1 shapeCasts_S1x1_S1⟩,
      ⟨S1, shapeCast S1 s2 shapeCasts_S1x1_S1⟩, ⟨S1, shapeCast S1 s3 shapeCasts_S1x1_S1⟩,
      ⟨S1, shapeCast S1 s4 shapeCasts_S1x1_S1⟩]
    concatenates_S1_S1_S1_S1_S1_S5_d0 (ix1 (2 : Fin 5)) 2 (by show 2 < 5; omega) S1 (shapeCast S1 s2 shapeCasts_S1x1_S1) rfl rfl
    2 rfl (ix1 (0 : Fin 1)) (fun b hb => (hb (Fin.ext (by have h1 : b.val < 1 := b.isLt; show b.val = 0; omega))).elim)
    rfl).trans ?_
  exact shapeCast_apply _ shapeCasts_S1x1_S1 (ix1 (0 : Fin 1)) (ix2 (0 : Fin 1) (0 : Fin 1))
    (by rw [Shape.rowMajor_val_two, Shape.rowMajor_val_one]; rfl)

theorem five_apply3 (s0 s1 s2 s3 s4 : Vec Ideal S1x1 .f32) :
    five s0 s1 s2 s3 s4 (ix1 (3 : Fin 5)) = s3 (ix2 (0 : Fin 1) (0 : Fin 1)) := by
  unfold five k0_pay4
  refine (concatenate_apply_piece (α := EReal) (t := S5) (0 : Fin S5.rank)
    [⟨S1, shapeCast S1 s0 shapeCasts_S1x1_S1⟩, ⟨S1, shapeCast S1 s1 shapeCasts_S1x1_S1⟩,
      ⟨S1, shapeCast S1 s2 shapeCasts_S1x1_S1⟩, ⟨S1, shapeCast S1 s3 shapeCasts_S1x1_S1⟩,
      ⟨S1, shapeCast S1 s4 shapeCasts_S1x1_S1⟩]
    concatenates_S1_S1_S1_S1_S1_S5_d0 (ix1 (3 : Fin 5)) 3 (by show 3 < 5; omega) S1 (shapeCast S1 s3 shapeCasts_S1x1_S1) rfl rfl
    3 rfl (ix1 (0 : Fin 1)) (fun b hb => (hb (Fin.ext (by have h1 : b.val < 1 := b.isLt; show b.val = 0; omega))).elim)
    rfl).trans ?_
  exact shapeCast_apply _ shapeCasts_S1x1_S1 (ix1 (0 : Fin 1)) (ix2 (0 : Fin 1) (0 : Fin 1))
    (by rw [Shape.rowMajor_val_two, Shape.rowMajor_val_one]; rfl)

theorem five_apply4 (s0 s1 s2 s3 s4 : Vec Ideal S1x1 .f32) :
    five s0 s1 s2 s3 s4 (ix1 (4 : Fin 5)) = s4 (ix2 (0 : Fin 1) (0 : Fin 1)) := by
  unfold five k0_pay4
  refine (concatenate_apply_piece (α := EReal) (t := S5) (0 : Fin S5.rank)
    [⟨S1, shapeCast S1 s0 shapeCasts_S1x1_S1⟩, ⟨S1, shapeCast S1 s1 shapeCasts_S1x1_S1⟩,
      ⟨S1, shapeCast S1 s2 shapeCasts_S1x1_S1⟩, ⟨S1, shapeCast S1 s3 shapeCasts_S1x1_S1⟩,
      ⟨S1, shapeCast S1 s4 shapeCasts_S1x1_S1⟩]
    concatenates_S1_S1_S1_S1_S1_S5_d0 (ix1 (4 : Fin 5)) 4 (by show 4 < 5; omega) S1 (shapeCast S1 s4 shapeCasts_S1x1_S1) rfl rfl
    4 rfl (ix1 (0 : Fin 1)) (fun b hb => (hb (Fin.ext (by have h1 : b.val < 1 := b.isLt; show b.val = 0; omega))).elim)
    rfl).trans ?_
  exact shapeCast_apply _ shapeCasts_S1x1_S1 (ix1 (0 : Fin 1)) (ix2 (0 : Fin 1) (0 : Fin 1))
    (by rw [Shape.rowMajor_val_two, Shape.rowMajor_val_one]; rfl)

/-! ## A running sum is a sum -/

theorem zero11_apply (j : S1x1.Idx) : (zero11 (F := Ideal)) j = 0 := by
  show Ideal.ofBits .f32 0x00000000#32 = 0
  exact Ideal.ofBits_zero_f32

theorem runSum_apply (f : (n : ℕ) → n < cfg0.N → Vec Ideal S1x1 .f32) (j : S1x1.Idx) :
    ∀ (n : ℕ) (h : n < cfg0.N), runSum f n h j = ∑ k : Fin (n + 1), f k.val (Nat.lt_of_lt_of_le k.isLt h) j
  | 0, h => by
    show ((zero11 (F := Ideal)) j : EReal) + (f 0 h j : EReal) = _
    rw [zero11_apply, zero_add, Fin.sum_univ_one]
    rfl
  | n + 1, h => by
    rw [Fin.sum_univ_castSucc]
    show ((runSum f n (Nat.lt_of_succ_lt h)) j : EReal) + (f (n + 1) h j : EReal) = _
    rw [runSum_apply f j n]
    rfl

/-! ## A block's entry is an entry of the flat argument array -/

section Blocks

variable (m : (ℓ : Loc nD τ sig) → Buf (Elt Ideal) ℓ)

/-- The two argument arrays, at their literal type. -/
abbrev xArr (c : Dev nD) : FVec Ideal S16777216 .f32 := m ((c.tc : Thread nD τ).loc main_arg0)
abbrev yArr (c : Dev nD) : FVec Ideal S16777216 .f32 := m ((c.tc : Thread nD τ).loc main_arg1)

/-- The region finds the first array viewed as 131072 rows of 128. -/
theorem V_rows0 (c : Dev nD) :
    (V m c main_v0 : S131072x128.Idx → Ideal .f32)
      = shapeCast S131072x128 (m ((c.tc : Thread nD τ).loc main_arg0)) shapeCasts_S16777216_S131072x128 := by
  show StableHlo.after (List.flatten [hostOps0]) (fun b => m (c, b)) (Proc.devRef .tc main_v0) = _
  rw [show List.flatten [hostOps0 (F := Ideal)] = hostOps0 from List.append_nil _]
  after_results
  rfl

/-- The same for the second array. -/
theorem V_rows1 (c : Dev nD) :
    (V m c main_v1 : S131072x128.Idx → Ideal .f32)
      = shapeCast S131072x128 (m ((c.tc : Thread nD τ).loc main_arg1)) shapeCasts_S16777216_S131072x128 := by
  show StableHlo.after (List.flatten [hostOps0]) (fun b => m (c, b)) (Proc.devRef .tc main_v1) = _
  rw [show List.flatten [hostOps0 (F := Ideal)] = hostOps0 from List.append_nil _]
  after_results
  rfl

/-- Block t of either window starts at row 4096·t, lane 0. -/
theorem index0 : ∀ t : Fin cfg0.N, win0_0.index t 0 = t.val ∧ win0_0.index t 1 = 0 :=
  (by decide +kernel : ∀ t : Fin grid0.N, _)
theorem index1 : ∀ t : Fin cfg0.N, win0_1.index t 0 = t.val ∧ win0_1.index t 1 = 0 :=
  (by decide +kernel : ∀ t : Fin grid0.N, _)

/-- The flat position of row r, lane l of block t. -/
def flat (t : Fin cfg0.N) (r : Fin 4096) (l : Fin 128) : Fin 16777216 :=
  ⟨(t.val * 4096 + r.val) * 128 + l.val, by
    have ht : t.val < 32 := lt_of_lt_of_eq t.isLt N_0
    have := r.isLt; have := l.isLt; omega⟩

theorem xb_apply (c : Dev nD) (t : Fin cfg0.N) (r : Fin 4096) (l : Fin 128) :
    xb m c t (ix2 r l) = m ((c.tc : Thread nD τ).loc main_arg0) (ix1 (flat t r l)) := by
  show iblk m c 0 t (ix2 r l) = _
  unfold iblk
  rw [View.read_apply]
  show V m c main_v0 (((cfg0.win 0).blk t).view.emb (ix2 r l)) = _
  rw [V_rows0]
  refine shapeCast_apply _ _ _ (ix1 (flat t r l)) ?_
  rw [Shape.rowMajor_val_one, Shape.rowMajor_val_two]
  show (t.val * 4096 + r.val) * 128 + l.val
    = (win0_0.index t 0 * 4096 + 1 * r.val) * 128 + (win0_0.index t 1 * 128 + 1 * l.val)
  rw [(index0 t).1, (index0 t).2]
  omega

theorem yb_apply (c : Dev nD) (t : Fin cfg0.N) (r : Fin 4096) (l : Fin 128) :
    yb m c t (ix2 r l) = m ((c.tc : Thread nD τ).loc main_arg1) (ix1 (flat t r l)) := by
  show iblk m c 1 t (ix2 r l) = _
  unfold iblk
  rw [View.read_apply]
  show V m c main_v1 (((cfg0.win 1).blk t).view.emb (ix2 r l)) = _
  rw [V_rows1]
  refine shapeCast_apply _ _ _ (ix1 (flat t r l)) ?_
  rw [Shape.rowMajor_val_one, Shape.rowMajor_val_two]
  show (t.val * 4096 + r.val) * 128 + l.val
    = (win0_1.index t 0 * 4096 + 1 * r.val) * 128 + (win0_1.index t 1 * 128 + 1 * l.val)
  rw [(index1 t).1, (index1 t).2]
  omega

/-! ## The five final sums are the sums over the whole arrays -/

/-- The indices of a flat array of 2²⁴ entries are the numbers below 2²⁴. -/
def flatEquiv : Fin 16777216 ≃ S16777216.Idx where
  toFun a := ix1 a
  invFun j := j 0
  left_inv _ := rfl
  right_inv j := (eq_ix1 j).symm

theorem card_idx : Fintype.card S16777216.Idx = 16777216 :=
  (Fintype.card_congr flatEquiv.symm).trans (Fintype.card_fin _)

/-- A running sum whose term at point t is the double sum, over block t, of g of the two blocks' entries is,
    after the last point, the sum of g over the whole arrays. -/
theorem runSum_total (c : Dev nD) (g : EReal → EReal → EReal) (f : (n : ℕ) → n < cfg0.N → Vec Ideal S1x1 .f32)
    (hf : ∀ (n : ℕ) (h : n < cfg0.N) (j : S1x1.Idx), f n h j
      = ∑ r : Fin 4096, ∑ l : Fin 128, g (xb m c ⟨n, h⟩ (ix2 r l)) (yb m c ⟨n, h⟩ (ix2 r l)))
    (j : S1x1.Idx) :
    runSum f 31 lt31 j
      = ∑ i : S16777216.Idx, g (m ((c.tc : Thread nD τ).loc main_arg0) i) (m ((c.tc : Thread nD τ).loc main_arg1) i) := by
  rw [runSum_apply]
  have e : ∀ k : Fin 32, f k.val (Nat.lt_of_lt_of_le k.isLt lt31) j
      = ∑ r : Fin 4096, ∑ l : Fin 128,
          (fun a : Fin 16777216 => g (m ((c.tc : Thread nD τ).loc main_arg0) (ix1 a)) (m ((c.tc : Thread nD τ).loc main_arg1) (ix1 a)))
            ⟨(k.val * 4096 + r.val) * 128 + l.val, by have := k.isLt; have := r.isLt; have := l.isLt; omega⟩ := by
    intro k
    rw [hf]
    refine Finset.sum_congr rfl fun r _ => Finset.sum_congr rfl fun l _ => ?_
    rw [xb_apply, yb_apply]
    rfl
  rw [show (∑ k : Fin (31 + 1), f k.val (Nat.lt_of_lt_of_le k.isLt lt31) j)
      = ∑ k : Fin 32, f k.val (Nat.lt_of_lt_of_le k.isLt lt31) j from rfl]
  rw [Finset.sum_congr rfl fun k _ => e k]
  refine (ContrastLoss.sum_blocks (M := EReal) (fun a : Fin 16777216 =>
    g (m ((c.tc : Thread nD τ).loc main_arg0) (ix1 a)) (m ((c.tc : Thread nD τ).loc main_arg1) (ix1 a)))).trans ?_
  exact Fintype.sum_equiv flatEquiv _ _ (fun _ => rfl)

/-- The five final sums. -/
theorem sum_x (c : Dev nD) (j : S1x1.Idx) : runSum (term0 m c) 31 lt31 j = ∑ i, xArr m c i :=
  runSum_total m c (fun a _ => a) (term0 m c) (fun n h j => ContrastLoss.blockSum_apply _ _ _ _ _ j) j

theorem sum_y (c : Dev nD) (j : S1x1.Idx) : runSum (term1 m c) 31 lt31 j = ∑ i, yArr m c i :=
  runSum_total m c (fun _ b => b) (term1 m c) (fun n h j => ContrastLoss.blockSum_apply _ _ _ _ _ j) j

theorem sum_xx (c : Dev nD) (j : S1x1.Idx) : runSum (term2 m c) 31 lt31 j = ∑ i, xArr m c i * xArr m c i :=
  runSum_total m c (fun a _ => a * a) (term2 m c) (fun n h j => ContrastLoss.blockSum_apply _ _ _ _ _ j) j

theorem sum_yy (c : Dev nD) (j : S1x1.Idx) : runSum (term3 m c) 31 lt31 j = ∑ i, yArr m c i * yArr m c i :=
  runSum_total m c (fun _ b => b * b) (term3 m c) (fun n h j => ContrastLoss.blockSum_apply _ _ _ _ _ j) j

theorem sum_xy (c : Dev nD) (j : S1x1.Idx) : runSum (term4 m c) 31 lt31 j = ∑ i, xArr m c i * yArr m c i :=
  runSum_total m c (fun a b => a * b) (term4 m c) (fun n h j => ContrastLoss.blockSum_apply _ _ _ _ _ j) j

/-- The kernel's result, on the extended reals: the expanded formula at the five sums over the whole arrays. -/
theorem result_loss (c : Dev nD) :
    tail (F := Ideal) (result m c) = fun _ =>
      ContrastLoss.sumsLoss (∑ i, xArr m c i) (∑ i, yArr m c i) (∑ i, xArr m c i * xArr m c i)
        (∑ i, yArr m c i * yArr m c i) (∑ i, xArr m c i * yArr m c i) := by
  funext j
  rw [tail_apply]
  unfold result
  rw [five_apply0, five_apply1, five_apply2, five_apply3, five_apply4, sum_x, sum_y, sum_xx, sum_yy, sum_xy]

end Blocks

end Cert.KernelIdeal.KerValue

end
-- ==== Proof.RefRun.lean ====
/-
  The run of the reference program, and its result as one function of the two argument arrays.

  The reference computes, from two arrays x, y of n = 2²⁴ numbers,

      loss = ½ · (cor + ε)²,   cor = cov / (σ₁ · σ₂ + ε),
      cov  = Σ (xᵢ − (x̄ + ε)) (yᵢ − (ȳ + ε)) / (n − 1),
      σ²   = Σ (xᵢ − x̄)² / (n − d)   (d = 1, an integer converted to a float; the quotient is kept only where n − d > 0),

  with x̄ = Σx / n, every sum taken from the float zero. Its @main is a straight line of host operations with two
  calls of a standard-deviation function, which calls a variance function, which calls a selection function; with the
  three bodies substituted at their call sites the program is ONE list of seventy-five operations (thirteen of @main,
  twenty-one per call — the variance's eighteen, the selection's two, the square root —, the second call's integer
  constant between them, and @main's last nineteen). A straight line runs to the fold of its operations' results over
  the launch contents; read at the result buffer that fold is `refOut` of the two argument arrays, for any float values.

  At the extended reals every operation is its textbook one, the sums are exact, the three broadcasts read a scalar,
  and the guard n − 1 > 0 holds: `refOut` is then the centred-first formula `ContrastLoss.centredLoss` (Spec.lean),
  operation for operation.
-/
import proofs.«138697_j28741921145436_1_alg».proof.ReferenceIdeal
import proofs.«138697_j28741921145436_1_alg».proof.Proof.Gen.ReferenceIdeal
import proofs.«138697_j28741921145436_1_alg».proof.Proof.Spec
import Idealize.ShloMosaic.Lib.StableHlo.Run
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.StableHlo Idealize.SL.Sem

variable {F : FTy → Type} [FloatOps F]

/-! ## The program as one list of operations -/

/-- @main's seventy-five operations in order, the three levels of calls substituted: the two shifted means (six
    operations each), the first call's integer one, the first standard deviation (into `main_call0`'s buffers), the
    second call's integer one, the second standard deviation (into `main_call1`'s), then the covariance, the
    correlation, the loss and its reshape to one element. -/
abbrev ops : List (HloOp τ sig (Elt F)) :=
  [ nullary main_cst (constant S_ .f32 0x00000000#32),
    binary main_arg0 main_cst main_v0 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_0 (constant S_ .f32 0x4B800000#32),
    binary main_v0 main_cst_0 main_v1 (Host.divf : (⟨S_, .f32⟩ : BufTy).Contents (Elt F) → (⟨S_, .f32⟩ : BufTy).Contents (Elt F) → (⟨S_, .f32⟩ : BufTy).Contents (Elt F)),
    nullary main_cst_1 (constant S_ .f32 0x3A83126F#32),
    binary main_v1 main_cst_1 main_v2 (addf : (⟨S_, .f32⟩ : BufTy).Contents (Elt F) → (⟨S_, .f32⟩ : BufTy).Contents (Elt F) → (⟨S_, .f32⟩ : BufTy).Contents (Elt F)),
    nullary main_cst_2 (constant S_ .f32 0x00000000#32),
    binary main_arg1 main_cst_2 main_v3 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_3 (constant S_ .f32 0x4B800000#32),
    binary main_v3 main_cst_3 main_v4 (Host.divf : (⟨S_, .f32⟩ : BufTy).Contents (Elt F) → (⟨S_, .f32⟩ : BufTy).Contents (Elt F) → (⟨S_, .f32⟩ : BufTy).Contents (Elt F)),
    nullary main_cst_4 (constant S_ .f32 0x3A83126F#32),
    binary main_v4 main_cst_4 main_v5 (addf : (⟨S_, .f32⟩ : BufTy).Contents (Elt F) → (⟨S_, .f32⟩ : BufTy).Contents (Elt F) → (⟨S_, .f32⟩ : BufTy).Contents (Elt F)),
    nullary main_c (constantI S_ 32 1#32),
    TRef.nullary main_call0.call0.cst (constant S_ .f32 0x00000000#32),
    TRef.binary (.of main_arg0 : TRef sig ⟨S16777216, .f32⟩) main_call0.call0.cst main_call0.call0.v0 (fun x v => Host.reduceAdd x v reducesTo_S16777216_S_d0 h_S_),
    TRef.unary main_call0.call0.v0 main_call0.call0.v1 (broadcastInDim S1 ![] bcast_S_S1),
    TRef.nullary main_call0.call0.cst_0 (constant S_ .f32 0x4B800000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S16777216 ![0] bcast_S1_S16777216_0),
    TRef.binary (.of main_arg0 : TRef sig ⟨S16777216, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x4B800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S16777216_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_c_5 (constantI S_ 32 1#32),
    TRef.nullary main_call1.call0.cst (constant S_ .f32 0x00000000#32),
    TRef.binary (.of main_arg1 : TRef sig ⟨S16777216, .f32⟩) main_call1.call0.cst main_call1.call0.v0 (fun x v => Host.reduceAdd x v reducesTo_S16777216_S_d0 h_S_),
    TRef.unary main_call1.call0.v0 main_call1.call0.v1 (broadcastInDim S1 ![] bcast_S_S1),
    TRef.nullary main_call1.call0.cst_0 (constant S_ .f32 0x4B800000#32),
    TRef.unary main_call1.call0.cst_0 main_call1.call0.v2 (broadcastInDim S1 ![] bcast_S_S1),
    TRef.binary main_call1.call0.v1 main_call1.call0.v2 main_call1.call0.v3 Host.divf,
    TRef.unary main_call1.call0.v3 main_call1.call0.v4 (broadcastInDim S16777216 ![0] bcast_S1_S16777216_0),
    TRef.binary (.of main_arg1 : TRef sig ⟨S16777216, .f32⟩) main_call1.call0.v4 main_call1.call0.v5 subf,
    TRef.binary main_call1.call0.v5 main_call1.call0.v5 main_call1.call0.v6 mulf,
    TRef.unary (.of main_c_5 : TRef sig ⟨S_, .i32⟩) main_call1.call0.v7 (sitofp .f32),
    TRef.nullary main_call1.call0.cst_1 (constant S_ .f32 0x4B800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S16777216_S_d0 h_S_),
    TRef.binary main_call1.call0.v9 main_call1.call0.v8 main_call1.call0.v10 Host.divf,
    TRef.nullary main_call1.call0.cst_3 (constant S_ .f32 0x00000000#32),
    TRef.binary main_call1.call0.v8 main_call1.call0.cst_3 main_call1.call0.v11 (cmpf .ogt),
    TRef.nullary main_call1.call0.cst_4 (constant S_ .f32 0x7FC00000#32),
    TRef.unary main_call1.call0.cst_4 main_call1.call0.call0.v0 id,
    TRef.ternary main_call1.call0.v11 main_call1.call0.v10 main_call1.call0.call0.v0 main_call1.call0.call0.v1 select,
    TRef.unary main_call1.call0.call0.v1 main_call1.v1 Host.sqrt,
    unary main_v2 main_v8 (broadcastInDim S16777216 ![] bcast_S_S16777216 : (⟨S_, .f32⟩ : BufTy).Contents (Elt F) → (⟨S16777216, .f32⟩ : BufTy).Contents (Elt F)),
    binary main_arg0 main_v8 main_v9 (subf : (⟨S16777216, .f32⟩ : BufTy).Contents (Elt F) → (⟨S16777216, .f32⟩ : BufTy).Contents (Elt F) → (⟨S16777216, .f32⟩ : BufTy).Contents (Elt F)),
    unary main_v5 main_v10 (broadcastInDim S16777216 ![] bcast_S_S16777216 : (⟨S_, .f32⟩ : BufTy).Contents (Elt F) → (⟨S16777216, .f32⟩ : BufTy).Contents (Elt F)),
    binary main_arg1 main_v10 main_v11 (subf : (⟨S16777216, .f32⟩ : BufTy).Contents (Elt F) → (⟨S16777216, .f32⟩ : BufTy).Contents (Elt F) → (⟨S16777216, .f32⟩ : BufTy).Contents (Elt F)),
    binary main_v9 main_v11 main_v12 (mulf : (⟨S16777216, .f32⟩ : BufTy).Contents (Elt F) → (⟨S16777216, .f32⟩ : BufTy).Contents (Elt F) → (⟨S16777216, .f32⟩ : BufTy).Contents (Elt F)),
    nullary main_cst_6 (constant S_ .f32 0x00000000#32),
    binary main_v12 main_cst_6 main_v13 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_7 (constant S_ .f32 0x4B7FFFFF#32),
    binary main_v13 main_cst_7 main_v14 (Host.divf : (⟨S_, .f32⟩ : BufTy).Contents (Elt F) → (⟨S_, .f32⟩ : BufTy).Contents (Elt F) → (⟨S_, .f32⟩ : BufTy).Contents (Elt F)),
    binary main_v6 main_v7 main_v15 (mulf : (⟨S_, .f32⟩ : BufTy).Contents (Elt F) → (⟨S_, .f32⟩ : BufTy).Contents (Elt F) → (⟨S_, .f32⟩ : BufTy).Contents (Elt F)),
    nullary main_cst_8 (constant S_ .f32 0x3A83126F#32),
    binary main_v15 main_cst_8 main_v16 (addf : (⟨S_, .f32⟩ : BufTy).Contents (Elt F) → (⟨S_, .f32⟩ : BufTy).Contents (Elt F) → (⟨S_, .f32⟩ : BufTy).Contents (Elt F)),
    binary main_v14 main_v16 main_v17 (Host.divf : (⟨S_, .f32⟩ : BufTy).Contents (Elt F) → (⟨S_, .f32⟩ : BufTy).Contents (Elt F) → (⟨S_, .f32⟩ : BufTy).Contents (Elt F)),
    nullary main_cst_9 (constant S_ .f32 0x3A83126F#32),
    binary main_v17 main_cst_9 main_v18 (addf : (⟨S_, .f32⟩ : BufTy).Contents (Elt F) → (⟨S_, .f32⟩ : BufTy).Contents (Elt F) → (⟨S_, .f32⟩ : BufTy).Contents (Elt F)),
    binary main_v18 main_v18 main_v19 (mulf : (⟨S_, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v19 main_v20 (mulf : (⟨S_, .f32⟩ : BufTy).Contents (Elt F) → (⟨S_, .f32⟩ : BufTy).Contents (Elt F) → (⟨S_, .f32⟩ : BufTy).Contents (Elt F)),
    reshape main_v20 main_v21 rfl shapeCasts_S_S1 ]

-- the chain has seventy-five steps and re-associating it nests that deep: hence the two bounds
set_option maxRecDepth 4096 in
set_option maxHeartbeats 1600000 in
/-- @main is that straight line: with the three functions' definitions unfolded at their calls and the records at
    their fields, both sides are one chain of steps once sequencing is re-associated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., binary_bufs_sub .., nullary_bufs_sub .., binary_bufs_sub ..,
    nullary_bufs_sub .., binary_bufs_sub .., nullary_bufs_sub .., binary_bufs_sub .., nullary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., binary_bufs_sub .., nullary_bufs_sub .., binary_bufs_sub .., nullary_bufs_sub ..,
    unary_bufs_sub .., ternary_bufs_sub .., unary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., binary_bufs_sub .., nullary_bufs_sub .., binary_bufs_sub .., nullary_bufs_sub ..,
    unary_bufs_sub .., ternary_bufs_sub .., unary_bufs_sub ..,
    unary_bufs_sub .., binary_bufs_sub .., unary_bufs_sub .., binary_bufs_sub .., binary_bufs_sub .., nullary_bufs_sub ..,
    binary_bufs_sub .., nullary_bufs_sub .., binary_bufs_sub .., binary_bufs_sub .., nullary_bufs_sub .., binary_bufs_sub ..,
    binary_bufs_sub .., nullary_bufs_sub .., binary_bufs_sub .., binary_bufs_sub .., nullary_bufs_sub .., binary_bufs_sub ..,
    reshape_bufs_sub ..⟩

/-! ## The result as one function of the two arrays, for any float values -/

/-- Σ x, from the float zero: the host's reduce of the whole array to rank 0. -/
def total (x : FVec F S16777216 .f32) : FVec F S_ .f32 :=
  Host.reduceAdd x (constant (F := F) S_ .f32 0x00000000#32) reducesTo_S16777216_S_d0 h_S_

/-- The shifted mean Σx / n + ε, at rank 0. -/
def shifted (x : FVec F S16777216 .f32) : FVec F S_ .f32 :=
  addf (Host.divf (total x) (constant (F := F) S_ .f32 0x4B800000#32)) (constant (F := F) S_ .f32 0x3A83126F#32)

/-- x − x̄, the mean taken at one-element shape (sum and n each broadcast to it, then divided) and broadcast along the array. -/
def centred (x : FVec F S16777216 .f32) : FVec F S16777216 .f32 :=
  subf x (broadcastInDim S16777216 ![0] bcast_S1_S16777216_0
    (Host.divf (broadcastInDim S1 ![] bcast_S_S1 (total x))
      (broadcastInDim S1 ![] bcast_S_S1 (constant (F := F) S_ .f32 0x4B800000#32))))

/-- n − d, the integer d converted to a float. -/
def dof (d : IVec S_ 32) : FVec F S_ .f32 :=
  subf (constant (F := F) S_ .f32 0x4B800000#32) (sitofp .f32 d)

/-- The variance with its guard: Σ (x − x̄)² / (n − d) where n − d > 0, the quiet NaN pattern elsewhere. -/
def variance (x : FVec F S16777216 .f32) (d : IVec S_ 32) : FVec F S_ .f32 :=
  select (cmpf .ogt (dof (F := F) d) (constant (F := F) S_ .f32 0x00000000#32))
    (Host.divf
      (Host.reduceAdd (mulf (centred x) (centred x)) (constant (F := F) S_ .f32 0x00000000#32) reducesTo_S16777216_S_d0 h_S_)
      (dof (F := F) d))
    (id (constant (F := F) S_ .f32 0x7FC00000#32))

/-- The standard deviation: the host's square root of the variance. -/
def deviation (x : FVec F S16777216 .f32) (d : IVec S_ 32) : FVec F S_ .f32 :=
  Host.sqrt (variance x d)

/-- The covariance about the shifted means, over n − 1 as one constant. -/
def covariance (x y : FVec F S16777216 .f32) : FVec F S_ .f32 :=
  Host.divf
    (Host.reduceAdd
      (mulf (subf x (broadcastInDim S16777216 ![] bcast_S_S16777216 (shifted x)))
        (subf y (broadcastInDim S16777216 ![] bcast_S_S16777216 (shifted y))))
      (constant (F := F) S_ .f32 0x00000000#32) reducesTo_S16777216_S_d0 h_S_)
    (constant (F := F) S_ .f32 0x4B7FFFFF#32)

/-- The correlation cov / (σ₁ · σ₂ + ε), each deviation with d = 1. -/
def correlation (x y : FVec F S16777216 .f32) : FVec F S_ .f32 :=
  Host.divf (covariance x y)
    (addf (mulf (deviation x (constantI S_ 32 1#32)) (deviation y (constantI S_ 32 1#32)))
      (constant (F := F) S_ .f32 0x3A83126F#32))

/-- The result as ONE function of the two argument arrays: ½ · ((cor + ε) · (cor + ε)), reshaped to one element. -/
def refOut (x y : FVec F S16777216 .f32) : FVec F S1 .f32 :=
  shapeCast S1
    (mulf (constant (F := F) S_ .f32 0x3F000000#32)
      (mulf (addf (correlation x y) (constant (F := F) S_ .f32 0x3A83126F#32))
        (addf (correlation x y) (constant (F := F) S_ .f32 0x3A83126F#32))))
    shapeCasts_S_S1

/-! ## The run -/

/-- On every device, for any float values, from any memory with zero counters: every weakly fair execution of @main
    terminates with the result buffer at `refOut` of the two arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (by after_results_simp; rfl),
      (h c main_arg0).trans (by after_results_simp),
      (h c main_arg1).trans (by after_results_simp)⟩)
    (run_seq scopedRefs_eq scopedSems_eq defs main (fun _ => ops) main_eq (fun _ => ops_sub) m ρ)

/-! ## At the extended reals: the centred-first formula -/

section AtIdeal

open Idealize.ShloMosaic.ValueIdx ContrastLoss

variable (x y : FVec Ideal S16777216 .f32)

/-- The total is the zero constant plus the exact sum, at the one index of rank 0. -/
theorem total_apply (k : S_.Idx) : total (F := Ideal) x k = cZero + ∑ i, x i := by
  unfold total
  rw [hostReduceAdd_apply, Ideal.hostReduceAdd_total _ (fun b => b.elim0)]
  rfl

/-- The shifted mean is the mean plus ε. -/
theorem shifted_apply (k : S_.Idx) : shifted (F := Ideal) x k = mean x + cEps := by
  unfold shifted
  rw [addf_apply, hostDivf_apply, total_apply]
  rfl

/-- The centred array at an index: the element less the mean (the mean's two broadcasts read the scalar). -/
theorem centred_apply (i : S16777216.Idx) : centred (F := Ideal) x i = x i - mean x := by
  unfold centred
  rw [subf_apply]
  unfold broadcastInDim
  rw [hostDivf_apply, total_apply]
  rfl

/-- n − 1: the integer one converts to the real one. -/
theorem dof_one (k : S_.Idx) : dof (F := Ideal) (constantI S_ 32 1#32) k = cN - ((1 : ℝ) : EReal) := by
  unfold dof
  rw [subf_apply, sitofp_apply]
  show cN - (((1#32 : BitVec 32).toInt : ℝ) : EReal) = _
  rw [show (1#32 : BitVec 32).toInt = 1 from by decide, Int.cast_one]

/-- The guard holds: 0 < n − 1 = 16777215. -/
theorem dof_one_pos (k : S_.Idx) : cZero < dof (F := Ideal) (constantI S_ 32 1#32) k := by
  rw [dof_one, cZero_eq, cN_eq, ← EReal.coe_sub, ← EReal.coe_zero, EReal.coe_lt_coe_iff]
  norm_num

/-- So the selection keeps the quotient: the variance is Σ (x − x̄)² / (n − 1) from zero. -/
theorem variance_apply (k : S_.Idx) :
    variance (F := Ideal) x (constantI S_ 32 1#32) k = centredVar x ((1 : ℝ) : EReal) := by
  unfold variance
  rw [select_apply, cmpf_apply, Ideal.cmpf_def]
  have hg : Ideal.cmp .ogt (dof (F := Ideal) (constantI S_ 32 1#32) k) (constant (F := Ideal) S_ .f32 0x00000000#32 k) = 1#1 := by
    unfold Ideal.cmp
    simp only
    have h : constant (F := Ideal) S_ .f32 0x00000000#32 k < dof (F := Ideal) (constantI S_ 32 1#32) k := dof_one_pos k
    rw [decide_eq_true h]
    rfl
  rw [hg, select_one, hostDivf_apply, hostReduceAdd_apply, Ideal.hostReduceAdd_total _ (fun b => b.elim0), dof_one]
  simp only [mulf_apply, centred_apply]
  rfl

theorem deviation_apply (k : S_.Idx) :
    deviation (F := Ideal) x (constantI S_ 32 1#32) k = Ideal.sqrt (centredVar x ((1 : ℝ) : EReal)) := by
  unfold deviation
  show Ideal.sqrt (variance (F := Ideal) x (constantI S_ 32 1#32) k) = _
  rw [variance_apply]

/-- The covariance: Σ (x − (x̄ + ε)) (y − (ȳ + ε)) / (n − 1) from zero, the two broadcasts reading the scalars. -/
theorem covariance_apply (k : S_.Idx) : covariance (F := Ideal) x y k = centredCov x y := by
  unfold covariance
  rw [hostDivf_apply, hostReduceAdd_apply, Ideal.hostReduceAdd_total _ (fun b => b.elim0)]
  unfold broadcastInDim
  simp only [mulf_apply, subf_apply, shifted_apply]
  rfl

theorem correlation_apply (k : S_.Idx) :
    correlation (F := Ideal) x y k
      = Ideal.div (centredCov x y)
          (Ideal.sqrt (centredVar x ((1 : ℝ) : EReal)) * Ideal.sqrt (centredVar y ((1 : ℝ) : EReal)) + cEps) := by
  unfold correlation
  rw [hostDivf_apply, covariance_apply, addf_apply, mulf_apply, deviation_apply, deviation_apply]
  rfl

/-- At the extended reals the result is the centred-first formula of Spec.lean. -/
theorem refOut_eq (x y : FVec Ideal S16777216 .f32) :
    refOut (F := Ideal) x y = fun _ => ContrastLoss.centredLoss x y ((1 : ℝ) : EReal) := by
  funext j
  unfold refOut shapeCast
  rw [mulf_apply, mulf_apply, addf_apply, correlation_apply]
  rfl

end AtIdeal

end Cert.ReferenceIdeal.RefValue

end
-- ==== Proof.Finite.lean ====
/-
  The precondition read: every entry of both arrays is a real number.

  The precondition says, of each array, that every entry's absolute value is below +∞ (an `all` over a
  pointwise comparison), and joins the two statements by `and`. An extended real a with max a (−a) < ⊤ is
  neither ⊤ nor ⊥, hence a real.
-/
import proofs.«138697_j28741921145436_1_alg».proof.Pre_finite_inputs
import proofs.«138697_j28741921145436_1_alg».proof.Proof.Gen.Pre_finite_inputs
import Idealize.ShloMosaic.Lib.ReduceAll
import Idealize.ShloMosaic.Lib.ValueIdx
import Idealize.ShloMosaic.PureOps.Ideal.Laws

noncomputable section

namespace ContrastLoss

open Idealize.ShloMosaic Idealize.ShloMosaic.ValueIdx

instance : Subsingleton Cert.Pre_finite_inputs.S_.Idx := ⟨fun _ _ => funext fun d => d.elim0⟩

/-- The pattern of +∞ denotes ⊤. -/
theorem ofBits_inf : Ideal.ofBits .f32 0x7F800000#32 = (⊤ : EReal) := by
  simp [Ideal.ofBits, Ideal.ieee]

/-- An extended real whose absolute value compares below +∞ is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  induction a using EReal.rec with
  | bot => simp at hlt
  | coe r => exact ⟨r, rfl⟩
  | top => simp at hlt

/-- Under the precondition both arrays hold real numbers only. -/
theorem real_of_pre (x y : FVec Ideal Cert.Pre_finite_inputs.S16777216 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  refine ⟨fun i => ?_, fun i => ?_⟩
  · have e := Host.reduce_andi_all _ _ _ _ ix0 hx i
    exact real_of_abs_lt_inf (x i) e
  · have e := Host.reduce_andi_all _ _ _ _ ix0 hy i
    exact real_of_abs_lt_inf (y i) e

end ContrastLoss

end
-- ==== Proof.lean ====
/-
  A correlation loss computed from five running sums equals the same loss computed from centred data.

  From two arrays x, y of n = 2²⁴ finite numbers the reference forms the means, the unbiased variances
  Σ(xᵢ − x̄)²/(n − 1), the covariance about the means shifted by ε, Σ(xᵢ − (x̄ + ε))(yᵢ − (ȳ + ε))/(n − 1), then
  cor = cov/(σ₁σ₂ + ε) and ½(cor + ε)². The kernel reads both arrays once, in 32 blocks of 4096 × 128, keeping
  the running sums Σx, Σy, Σx², Σy², Σxy, and afterwards evaluates the expanded forms
  (Σx² − n(Σx/n)²)/(n − 1) and (Σxy − m₂Σx − m₁Σy + n m₁m₂)/(n − 1).

  Over the extended reals the kernel's five running sums are the five sums over the whole arrays (addition is
  associative and commutative there, whatever the blocking), the reference's reductions are the same sums, and for
  real entries the centred and the expanded forms are equal by expanding the squares and products; this last step
  distributes multiplication over sums, which is why the entries must be finite. Nothing of the two idealized programs
  was rewritten from the kernel's text, so the kernel's idealization claim is empty.
-/
import proofs.«138697_j28741921145436_1_alg».proof.Defs
import proofs.«138697_j28741921145436_1_alg».proof.Proof.Gen.Kernel
import proofs.«138697_j28741921145436_1_alg».proof.Proof.Gen.Kernel.Frame
import proofs.«138697_j28741921145436_1_alg».proof.Proof.Gen.KernelIdeal
import proofs.«138697_j28741921145436_1_alg».proof.Proof.Gen.KernelIdeal.Frame
import proofs.«138697_j28741921145436_1_alg».proof.Proof.Gen.ReferenceIdeal
import proofs.«138697_j28741921145436_1_alg».proof.Proof.Gen.Pre_finite_inputs
import proofs.«138697_j28741921145436_1_alg».proof.Proof.KerIdeal
import proofs.«138697_j28741921145436_1_alg».proof.Proof.RefRun
import proofs.«138697_j28741921145436_1_alg».proof.Proof.Finite
import proofs.«138697_j28741921145436_1_alg».proof.Proof.Algebra
import Idealize.ShloMosaic.Adequacy
import Idealize.ShloMosaic.Init

noncomputable section

namespace Cert.Proof

open Idealize.ShloMosaic Idealize.SL.Sem

/-- The kernel, at the bit level, runs and leaves its two arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: it runs, and writes neither argument. -/
theorem frame_ri : Cert.frame_ReferenceIdeal := fun m ρ _ =>
  (θ_run Cert.ReferenceIdeal.defs _ _).mono (fun _ h c => (h c).2)
    (Cert.ReferenceIdeal.RefValue.run (F := Ideal) m ρ)

theorem preserves : Cert.preserves_Kernel_KernelIdeal := trivial

/-- Both programs end with the same number: the kernel with the expanded formula at the five sums over the whole
    arrays, the reference with the centred formula, and on finite entries the two agree. -/
theorem algebraic : Cert.algebraic_KernelIdeal_ReferenceIdeal := by
  intro m ρ m' ρ' hpre hagree
  refine ⟨fun c => Cert.KernelIdeal.KerValue.tail (F := Ideal) (Cert.KernelIdeal.KerValue.result m c),
    Cert.KernelIdeal.KerValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  show _ = Cert.KernelIdeal.KerValue.tail (F := Ideal) (Cert.KernelIdeal.KerValue.result m c)
  rw [(hagree c).1, (hagree c).2, Cert.ReferenceIdeal.RefValue.refOut_eq, Cert.KernelIdeal.KerValue.result_loss]
  obtain ⟨hx, hy⟩ := ContrastLoss.real_of_pre _ _ (hpre c)
  funext _
  exact ContrastLoss.centredLoss_eq_sumsLoss Cert.KernelIdeal.KerValue.card_idx _ _ hx hy

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
